-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S200000x128 .f32) (main_arg1 : IVec S2x6400000 32) (main_arg2 : FVec F S128x16 .f32) (main_arg3 : FVec F S16 .f32) (main_arg4 : FVec F S16x40 .f32) (main_arg5 : FVec F S40 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S5000x128 : Shape := ⟨2, ![5000, 128]⟩
abbrev S5000x16 : Shape := ⟨2, ![5000, 16]⟩
abbrev S6600000x16 : Shape := ⟨2, ![6600000, 16]⟩
abbrev S1x16 : Shape := ⟨2, ![1, 16]⟩
abbrev S200000x40 : Shape := ⟨2, ![200000, 40]⟩
abbrev S5000x40 : Shape := ⟨2, ![5000, 40]⟩
abbrev S6600000x40 : Shape := ⟨2, ![6600000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 83
  | .vmem => 16
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S200000, .i32⟩
  | .hbm, ⟨7, _⟩ => ⟨S1x6400000, .i32⟩
  | .hbm, ⟨8, _⟩ => ⟨S6400000, .i32⟩
  | .hbm, ⟨9, _⟩ => ⟨S6600000, .i32⟩
  | .hbm, ⟨10, _⟩ => ⟨S1x6400000, .i32⟩
  | .hbm, ⟨11, _⟩ => ⟨S6400000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S6600000, .i32⟩
  | .hbm, ⟨29, _⟩ => ⟨S6600000, .i1⟩
  | .hbm, ⟨30, _⟩ => ⟨S_, .i32⟩
  | .hbm, ⟨31, _⟩ => ⟨S6600000, .i32⟩
  | .hbm, ⟨32, _⟩ => ⟨S6600000, .i32⟩
  | .hbm, ⟨33, _⟩ => ⟨S6600000, .i32⟩
  | .hbm, ⟨34, _⟩ => ⟨S6600000x1, .i32⟩
  | .hbm, ⟨35, _⟩ => ⟨S6600000, .f32⟩
  | .hbm, ⟨36, _⟩ => ⟨S_, .i32⟩
  | .hbm, ⟨37, _⟩ => ⟨S6600000, .i32⟩
  | .hbm, ⟨38, _⟩ => ⟨S6600000, .i1⟩
  | .hbm, ⟨39, _⟩ => ⟨S_, .i32⟩
  | .hbm, ⟨40, _⟩ => ⟨S6600000, .i32⟩
  | .hbm, ⟨41, _⟩ => ⟨S6600000, .i32⟩
  | .hbm, ⟨42, _⟩ => ⟨S6600000, .i32⟩
  | .hbm, ⟨43, _⟩ => ⟨S6600000x1, .i32⟩
  | .hbm, ⟨44, _⟩ => ⟨S6600000, .f32⟩
  | .hbm, ⟨45, _⟩ => ⟨S6600000, .f32⟩
  | .hbm, ⟨46, _⟩ => ⟨S200000x16, .f32⟩
  | .hbm, ⟨47, _⟩ => ⟨S_, .i32⟩
  | .hbm, ⟨48, _⟩ => ⟨S6600000, .i32⟩
  | .hbm, ⟨49, _⟩ => ⟨S6600000, .i1⟩
  | .hbm, ⟨50, _⟩ => ⟨S_, .i32⟩
  | .hbm, ⟨51, _⟩ => ⟨S6600000, .i32⟩
  | .hbm, ⟨52, _⟩ => ⟨S6600000, .i32⟩
  | .hbm, ⟨53, _⟩ => ⟨S6600000, .i32⟩
  | .hbm, ⟨54, _⟩ => ⟨S6600000x1, .i32⟩
  | .hbm, ⟨55, _⟩ => ⟨S6600000x16, .f32⟩
  | .hbm, ⟨56, _⟩ => ⟨S6600000x1, .f32⟩
  | .hbm, ⟨57, _⟩ => ⟨S6600000x16, .f32⟩
  | .hbm, ⟨58, _⟩ => ⟨S6600000x16, .f32⟩
  | .hbm, ⟨59, _⟩ => ⟨S_, .f32⟩
  | .hbm, ⟨60, _⟩ => ⟨S200000x16, .f32⟩
  | .hbm, ⟨61, _⟩ => ⟨S6600000x1, .i32⟩
  | .hbm, ⟨62, _⟩ => ⟨S200000x16, .f32⟩
  | .hbm, ⟨63, _⟩ => ⟨S1x16, .f32⟩
  | .hbm, ⟨64, _⟩ => ⟨S200000x40, .f32⟩
  | .hbm, ⟨65, _⟩ => ⟨S_, .i32⟩
  | .hbm, ⟨66, _⟩ => ⟨S6600000, .i32⟩
  | .hbm, ⟨67, _⟩ => ⟨S6600000, .i1⟩
  | .hbm, ⟨68, _⟩ => ⟨S_, .i32⟩
  | .hbm, ⟨69, _⟩ => ⟨S6600000, .i32⟩
  | .hbm, ⟨70, _⟩ => ⟨S6600000, .i32⟩
  | .hbm, ⟨71, _⟩ => ⟨S6600000, .i32⟩
  | .hbm, ⟨72, _⟩ => ⟨S6600000x1, .i32⟩
  | .hbm, ⟨73, _⟩ => ⟨S6600000x40, .f32⟩
  | .hbm, ⟨74, _⟩ => ⟨S6600000x1, .f32⟩
  | .hbm, ⟨75, _⟩ => ⟨S6600000x40, .f32⟩
  | .hbm, ⟨76, _⟩ => ⟨S6600000x40, .f32⟩
  | .hbm, ⟨77, _⟩ => ⟨S_, .f32⟩
  | .hbm, ⟨78, _⟩ => ⟨S200000x40, .f32⟩
  | .hbm, ⟨79, _⟩ => ⟨S6600000x1, .i32⟩
  | .hbm, ⟨80, _⟩ => ⟨S200000x40, .f32⟩
  | .hbm, ⟨81, _⟩ => ⟨S1x40, .f32⟩
  | .hbm, ⟨82, _⟩ => ⟨S200000x40, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S16x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  bcast_S6600000x1_S6600000x40_0_1 : S6600000x1.BroadcastsInDim S6600000x40 (![0, 1] : Fin 2 → Fin S6600000x40.rank)
  bcast_S_S200000x40 : S_.BroadcastsInDim S200000x40 (![] : Fin 0 → Fin S200000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S5000x128_S128x16_S5000x16_1_0_0_1_n_n_wf : DotDims.WF S5000x128 S128x16 S5000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S5000x16_S16x40_S5000x40_1_0_0_1_n_n_wf : DotDims.WF S5000x16 S16x40 S5000x40 [1] [0] [0] [1] [] []
  gather_S200000x40_S6600000x1_S6600000x40_1_0_n_n_0_1_140_wf : GatherDims.WF S200000x40 S6600000x1 S6600000x40 [1] [0] [] [0] [] 1 ![1, 40]
  scatter_S200000x40_S6600000x1_S6600000x40_1_0_0_1_wf : ScatterDims.WF S200000x40 S6600000x1 S6600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .f32 = 32 ∨ (Rect.block (s := S200000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S200000x16.size a
  hwx0_2 : ∀ i : grid0.Coords, EltTy.bits .f32 = 32 ∨ (Rect.block (s := S200000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S200000x16.size a
  hwx1_0 : ∀ i : grid1.Coords, EltTy.bits .f32 = 32 ∨ (Rect.block (s := S200000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x40.size a ≤ S16x40.size a
  hwx1_2 : ∀ i : grid1.Coords, EltTy.bits .f32 = 32 ∨ (Rect.block (s := S16x40) S16x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S200000x40.size a
  hwx1_3 : ∀ i : grid1.Coords, EltTy.bits .f32 = 32 ∨ (Rect.block (s := S200000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S200000x40.size a
  hwx2_0 : ∀ i : grid2.Coords, EltTy.bits .f32 = 32 ∨ (Rect.block (s := S200000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S200000x40.size a
  hwx2_2 : ∀ i : grid2.Coords, EltTy.bits .f32 = 32 ∨ (Rect.block (s := S200000x40) S5000x40.size (cc2_transform_2 i) (hinb2_2 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S200000x40_S6600000x1_S6600000x40_1_0_n_n_0_1_140 : GatherDims S200000x40 S6600000x1 S6600000x40 where
  offsetDims := [1]
  collapsedSliceDims := [0]
  operandBatchingDims := []
  startIndicesBatchingDims := []
  startIndexMap := [0]
  indexVectorDim := 1
  sliceSizes := ![1, 40]
  wf := gather_S200000x40_S6600000x1_S6600000x40_1_0_n_n_0_1_140_wf
def scatter_S200000x40_S6600000x1_S6600000x40_1_0_0_1 : ScatterDims S200000x40 S6600000x1 S6600000x40 where
  updateWindowDims := [1]
  insertedWindowDims := [0]
  scatterDimsToOperandDims := [0]
  indexVectorDim := 1
  wf := scatter_S200000x40_S6600000x1_S6600000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S200000x16 : Shape := ⟨2, ![200000, 16]⟩
abbrev S_ : Shape := ⟨0, ![]⟩
abbrev S6600000x1 : Shape := ⟨2, ![6600000, 1]⟩
abbrev S6600000x16 : Shape := ⟨2, ![6600000, 16]⟩
abbrev S1x16 : Shape := ⟨2, ![1, 16]⟩
abbrev S200000x40 : Shape := ⟨2, ![200000, 40]⟩
abbrev S6600000x40 : Shape := ⟨2, ![6600000, 40]⟩
abbrev S1x40 : Shape := ⟨2, ![1, 40]⟩
abbrev S200000x1 : Shape := ⟨2, ![200000, 1]⟩

abbrev nBuf : Space → Nat
  | .hbm => 137
  | .vmem => 0
  | .smem => 0
  | _ => 0

abbrev hbmTy0_0 (i : Nat) : BufTy := match i % 128 with
  | 0 => ⟨S200000x128, .f32⟩
  | 1 => ⟨S2x6400000, .i32⟩
  | 2 => ⟨S128x16, .f32⟩
  | 3 => ⟨S16, .f32⟩
  | 4 => ⟨S16x40, .f32⟩
  | 5 => ⟨S40, .f32⟩
  | 6 => ⟨S200000, .i32⟩
  | 7 => ⟨S1x6400000, .i32⟩
  | 8 => ⟨S6400000, .i32⟩
  | 9 => ⟨S6600000, .i32⟩
  | 10 => ⟨S1x6400000, .i32⟩
  | 11 => ⟨S6400000, .i32⟩
  | 12 => ⟨S6600000, .i32⟩
  | 13 => ⟨S200000x16, .f32⟩
  | 14 => ⟨S_, .f32⟩
  | 15 => ⟨S6600000, .f32⟩
  | 16 => ⟨S_, .f32⟩
  | 17 => ⟨S200000, .f32⟩
  | 18 => ⟨S6600000x1, .i32⟩
  | 19 => ⟨S200000, .f32⟩
  | 20 => ⟨S_, .f32⟩
  | 21 => ⟨S200000, .f32⟩
  | 22 => ⟨S200000, .i1⟩
  | 23 => ⟨S200000, .f32⟩
  | 24 => ⟨S_, .f32⟩
  | 25 => ⟨S_, .f32⟩
  | 26 => ⟨S200000, .f32⟩
  | 27 => ⟨S200000, .f32⟩
  | 28 => ⟨S_, .i32⟩
  | 29 => ⟨S6600000, .i32⟩
  | 30 => ⟨S6600000, .i1⟩
  | 31 => ⟨S_, .i32⟩
  | 32 => ⟨S6600000, .i32⟩
  | 33 => ⟨S6600000, .i32⟩
  | 34 => ⟨S6600000, .i32⟩
  | 35 => ⟨S6600000x1, .i32⟩
  | 36 => ⟨S6600000, .f32⟩
  | 37 => ⟨S_, .i32⟩
  | 38 => ⟨S6600000, .i32⟩
  | 39 => ⟨S6600000, .i1⟩
  | 40 => ⟨S_, .i32⟩
  | 41 => ⟨S6600000, .i32⟩
  | 42 => ⟨S6600000, .i32⟩
  | 43 => ⟨S6600000, .i32⟩
  | 44 => ⟨S6600000x1, .i32⟩
  | 45 => ⟨S6600000, .f32⟩
  | 46 => ⟨S6600000, .f32⟩
  | 47 => ⟨S_, .i32⟩
  | 48 => ⟨S6600000, .i32⟩
  | 49 => ⟨S6600000, .i1⟩
  | 50 => ⟨S_, .i32⟩
  | 51 => ⟨S6600000, .i32⟩
  | 52 => ⟨S6600000, .i32⟩
  | 53 => ⟨S6600000, .i32⟩
  | 54 => ⟨S6600000x1, .i32⟩
  | 55 => ⟨S6600000x16, .f32⟩
  | 56 => ⟨S6600000x1, .f32⟩
  | 57 => ⟨S6600000x16, .f32⟩
  | 58 => ⟨S6600000x16, .f32⟩
  | 59 => ⟨S_, .f32⟩
  | 60 => ⟨S200000x16, .f32⟩
  | 61 => ⟨S6600000x1, .i32⟩
  | 62 => ⟨S200000x16, .f32⟩
  | 63 => ⟨S1x16, .f32⟩
  | 64 => ⟨S200000x16, .f32⟩
  | 65 => ⟨S200000x16, .f32⟩
  | 66 => ⟨S_, .f32⟩
  | 67 => ⟨S200000x16, .f32⟩
  | 68 => ⟨S200000x16, .f32⟩
  | 69 => ⟨S200000x40, .f32⟩
  | 70 => ⟨S_, .f32⟩
  | 71 => ⟨S6600000, .f32⟩
  | 72 => ⟨S_, .f32⟩
  | 73 => ⟨S200000, .f32⟩
  | 74 => ⟨S6600000x1, .i32⟩
  | 75 => ⟨S200000, .f32⟩
  | 76 => ⟨S_, .f32⟩
  | 77 => ⟨S200000, .f32⟩
  | 78 => ⟨S200000, .i1⟩
  | 79 => ⟨S200000, .f32⟩
  | 80 => ⟨S_, .f32⟩
  | 81 => ⟨S_, .f32⟩
  | 82 => ⟨S200000, .f32⟩
  | 83 => ⟨S200000, .f32⟩
  | 84 => ⟨S_, .i32⟩
  | 85 => ⟨S6600000, .i32⟩
  | 86 => ⟨S6600000, .i1⟩
  | 87 => ⟨S_, .i32⟩
  | 88 => ⟨S6600000, .i32⟩
  | 89 => ⟨S6600000, .i32⟩
  | 90 => ⟨S6600000, .i32⟩
  | 91 => ⟨S6600000x1, .i32⟩
  | 92 => ⟨S6600000, .f32⟩
  | 93 => ⟨S_, .i32⟩
  | 94 => ⟨S6600000, .i32⟩
  | 95 => ⟨S6600000, .i1⟩
  | 96 => ⟨S_, .i32⟩
  | 97 => ⟨S6600000, .i32⟩
  | 98 => ⟨S6600000, .i32⟩
  | 99 => ⟨S6600000, .i32⟩
  | 100 => ⟨S6600000x1, .i32⟩
  | 101 => ⟨S6600000, .f32⟩
  | 102 => ⟨S6600000, .f32⟩
  | 103 => ⟨S_, .i32⟩
  | 104 => ⟨S6600000, .i32⟩
  | 105 => ⟨S6600000, .i1⟩
  | 106 => ⟨S_, .i32⟩
  | 107 => ⟨S6600000, .i32⟩
  | 108 => ⟨S6600000, .i32⟩
  | 109 => ⟨S6600000, .i32⟩
  | 110 => ⟨S6600000x1, .i32⟩
  | 111 => ⟨S6600000x40, .f32⟩
  | 112 => ⟨S6600000x1, .f32⟩
  | 113 => ⟨S6600000x40, .f32⟩
  | 114 => ⟨S6600000x40, .f32⟩
  | 115 => ⟨S_, .f32⟩
  | 116 => ⟨S200000x40, .f32⟩
  | 117 => ⟨S6600000x1, .i32⟩
  | 118 => ⟨S200000x40, .f32⟩
  | 119 => ⟨S1x40, .f32⟩
  | 120 => ⟨S200000x40, .f32⟩
  | 121 => ⟨S200000x40, .f32⟩
  | 122 => ⟨S_, .f32⟩
  | 123 => ⟨S200000, .f32⟩
  | 124 => ⟨S_, .f32⟩
  | 125 => ⟨S200000, .f32⟩
  | 126 => ⟨S200000, .f32⟩
  | 127 => ⟨S200000x1, .f32⟩
  | _ => ⟨S200000x128, .f32⟩

abbrev hbmTy0_1 (i : Nat) : BufTy := match i % 128 with
  | 0 => ⟨S200000x40, .f32⟩
  | 1 => ⟨S200000x40, .f32⟩
  | 2 => ⟨S200000x40, .f32⟩
  | 3 => ⟨S_, .f32⟩
  | 4 => ⟨S200000, .f32⟩
  | 5 => ⟨S200000x1, .f32⟩
  | 6 => ⟨S200000x1, .f32⟩
  | 7 => ⟨S200000x40, .f32⟩
  | 8 => ⟨S200000x40, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S6600000x1_S6600000x40_0_1 : S6600000x1.BroadcastsInDim S6600000x40 (![0, 1] : Fin 2 → Fin S6600000x40.rank)
  bcast_S_S200000x40 : S_.BroadcastsInDim S200000x40 (![] : Fin 0 → Fin S200000x40.rank)
  bcast_S40_S1x40_1 : S40.BroadcastsInDim S1x40 (![1] : Fin 1 → Fin S1x40.rank)
  bcast_S1x40_S200000x40_0_1 : S1x40.BroadcastsInDim S200000x40 (![0, 1] : Fin 2 → Fin S200000x40.rank)
  reducesTo_S200000x40_S200000_d1 : S200000x40.ReducesTo [1] S200000
  h_S_ : 0 < S_.numel
  bcast_S200000_S200000x1_0 : S200000.BroadcastsInDim S200000x1 (![0] : Fin 1 → Fin S200000x1.rank)
  bcast_S200000x1_S200000x40_0_1 : S200000x1.BroadcastsInDim S200000x40 (![0, 1] : Fin 2 → Fin S200000x40.rank)
  dot_S200000x128_S128x16_S200000x16_1_0_0_1_n_n_wf : DotDims.WF S200000x128 S128x16 S200000x16 [1] [0] [0] [1] [] []
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x40_S200000x40_1_0_0_1_n_n_wf : DotDims.WF S200000x16 S16x40 S200000x40 [1] [0] [0] [1] [] []
  gather_S200000x40_S6600000x1_S6600000x40_1_0_n_n_0_1_140_wf : GatherDims.WF S200000x40 S6600000x1 S6600000x40 [1] [0] [] [0] [] 1 ![1, 40]
  scatter_S200000x40_S6600000x1_S6600000x40_1_0_0_1_wf : ScatterDims.WF S200000x40 S6600000x1 S6600000x40 [1] [0] [0] 1

variable [Facts₀]

def dot_S200000x128_S128x16_S200000x16_1_0_0_1_n_n : DotDims S200000x128 S128x16 S200000x16 where
  lhsContracting := [1]
  rhsContracting := [0]
  lhsNonContracting := [0]
  rhsNonContracting := [1]
  lhsBatch := []
  rhsBatch := []
  wf := dot_S200000x128_S128x16_S200000x16_1_0_0_1_n_n_wf
def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x40_S200000x40_1_0_0_1_n_n : DotDims S200000x16 S16x40 S200000x40 where
  lhsContracting := [1]
  rhsContracting := [0]
  lhsNonContracting := [0]
  rhsNonContracting := [1]
  lhsBatch := []
  rhsBatch := []
  wf := dot_S200000x16_S16x40_S200000x40_1_0_0_1_n_n_wf
def gather_S200000x40_S6600000x1_S6600000x40_1_0_n_n_0_1_140 : GatherDims S200000x40 S6600000x1 S6600000x40 where
  offsetDims := [1]
  collapsedSliceDims := [0]
  operandBatchingDims := []
  startIndicesBatchingDims := []
  startIndexMap := [0]
  indexVectorDim := 1
  sliceSizes := ![1, 40]
  wf := gather_S200000x40_S6600000x1_S6600000x40_1_0_n_n_0_1_140_wf
def scatter_S200000x40_S6600000x1_S6600000x40_1_0_0_1 : ScatterDims S200000x40 S6600000x1 S6600000x40 where
  updateWindowDims := [1]
  insertedWindowDims := [0]
  scatterDimsToOperandDims := [0]
  indexVectorDim := 1
  wf := scatter_S200000x40_S6600000x1_S6600000x40_1_0_0_1_wf

class Facts : Prop extends Facts₀ where

variable [Facts]
-- ==== Proof.HostChains.lean ====
/-
  The graph side of the convolution, which both programs run on the host with the same operations: the edge lists with
  their self loops, the symmetric normalisation of an edge, and one aggregation step
        out(v, ·) = Σ over edges e with dst e = v of  H(src e, ·) · norm e
  (a row gather at the sources, a scaling by the edge's weight, a scatter-add at the destinations). They are named here
  once, for any float instance, so that each program's values are compared piece by piece and an aggregation is never
  opened: the certificate needs of it only that both sides apply the same function to equal arrays.
-/
import proofs.«119924_j85598698209491_1_alg».proof.Proof.Gen.ReferenceIdeal

noncomputable section

namespace Cert.ReferenceIdeal.Chains

open Cert.ReferenceIdeal Cert.ReferenceIdeal.Gen Idealize.ShloMosaic Idealize.ShloMosaic.TcCoe

variable {F : FTy → Type} [FloatOps F]

/-- Row `r` of the edge array followed by the self loops 0 … 199999: the sources (r = 0) or the destinations (r = 1). -/
def srcOf (e : (⟨S2x6400000, .i32⟩ : BufTy).Contents (Elt F)) : (⟨S6600000, .i32⟩ : BufTy).Contents (Elt F) :=
  concatenate S6600000 0 [⟨S6400000, shapeCast _ (extractStridedSlice S1x6400000 ![0, 0] e slices_S2x6400000_S1x6400000_0_0) shapeCasts_S1x6400000_S6400000⟩, ⟨S200000, iotaInDim S200000 32 0⟩] concatenates_S6400000_S200000_S6600000_d0
def dstOf (e : (⟨S2x6400000, .i32⟩ : BufTy).Contents (Elt F)) : (⟨S6600000, .i32⟩ : BufTy).Contents (Elt F) :=
  concatenate S6600000 0 [⟨S6400000, shapeCast _ (extractStridedSlice S1x6400000 ![1, 0] e slices_S2x6400000_S1x6400000_1_0) shapeCasts_S1x6400000_S6400000⟩, ⟨S200000, iotaInDim S200000 32 0⟩] concatenates_S6400000_S200000_S6600000_d0

/-- A negative index counts from the end: 200000 is added to it. -/
def wrap (s : (⟨S6600000, .i32⟩ : BufTy).Contents (Elt F)) : (⟨S6600000, .i32⟩ : BufTy).Contents (Elt F) :=
  select (cmpi .slt s (broadcastInDim S6600000 ![] bcast_S_S6600000 (constantI S_ 32 0#32)))
    (addi s (broadcastInDim S6600000 ![] bcast_S_S6600000 (constantI S_ 32 200000#32))) s

/-- An index list as a one-column index array. -/
def colI (s : (⟨S6600000, .i32⟩ : BufTy).Contents (Elt F)) : (⟨S6600000x1, .i32⟩ : BufTy).Contents (Elt F) :=
  broadcastInDim S6600000x1 ![0] bcast_S6600000_S6600000x1_0 s

/-- The degree of every node: ones scatter-added at the destinations. -/
def degOf (d : (⟨S6600000, .i32⟩ : BufTy).Contents (Elt F)) : (⟨S200000, .f32⟩ : BufTy).Contents (Elt F) :=
  Host.scatterAdd scatter_S200000_S6600000x1_S6600000_n_0_0_1 (broadcastInDim S200000 ![] bcast_S_S200000 (constant S_ .f32 0x00000000#32))
    (colI d) (broadcastInDim S6600000 ![] bcast_S_S6600000 (constant S_ .f32 0x3F800000#32))

/-- deg^(-1/2) where the degree is positive, else 0. -/
def dinvOf (d : (⟨S6600000, .i32⟩ : BufTy).Contents (Elt F)) : (⟨S200000, .f32⟩ : BufTy).Contents (Elt F) :=
  select (cmpf (F := F) .ogt (degOf d) (broadcastInDim S200000 ![] bcast_S_S200000 (constant S_ .f32 0x00000000#32)))
    (Host.rsqrt (degOf d)) (broadcastInDim S200000 ![] bcast_S_S200000 (constant S_ .f32 0x00000000#32))

/-- An edge's weight: dinv at its source times dinv at its destination. -/
def normOf (s d : (⟨S6600000, .i32⟩ : BufTy).Contents (Elt F)) : (⟨S6600000, .f32⟩ : BufTy).Contents (Elt F) :=
  mulf (Host.gather gather_S200000_S6600000x1_S6600000_n_0_n_n_0_1_1 (dinvOf d) (colI (wrap s)))
    (Host.gather gather_S200000_S6600000x1_S6600000_n_0_n_n_0_1_1 (dinvOf d) (colI (wrap d)))

/-- One aggregation over 16 columns: rows of `H` gathered at the sources, scaled by the edge weights, scatter-added at the destinations. -/
def agg16 (H : (⟨S200000x16, .f32⟩ : BufTy).Contents (Elt F)) (s d : (⟨S6600000, .i32⟩ : BufTy).Contents (Elt F))
    (n : (⟨S6600000, .f32⟩ : BufTy).Contents (Elt F)) : (⟨S200000x16, .f32⟩ : BufTy).Contents (Elt F) :=
  Host.scatterAdd scatter_S200000x16_S6600000x1_S6600000x16_1_0_0_1 (broadcastInDim S200000x16 ![] bcast_S_S200000x16 (constant S_ .f32 0x00000000#32))
    (colI d)
    (mulf (Host.gather gather_S200000x16_S6600000x1_S6600000x16_1_0_n_n_0_1_116 H (colI (wrap s)))
      (broadcastInDim S6600000x16 ![0, 1] bcast_S6600000x1_S6600000x16_0_1 (broadcastInDim S6600000x1 ![0] bcast_S6600000_S6600000x1_0 n)))

/-- The same over 40 columns. -/
def agg40 (H : (⟨S200000x40, .f32⟩ : BufTy).Contents (Elt F)) (s d : (⟨S6600000, .i32⟩ : BufTy).Contents (Elt F))
    (n : (⟨S6600000, .f32⟩ : BufTy).Contents (Elt F)) : (⟨S200000x40, .f32⟩ : BufTy).Contents (Elt F) :=
  Host.scatterAdd scatter_S200000x40_S6600000x1_S6600000x40_1_0_0_1 (broadcastInDim S200000x40 ![] bcast_S_S200000x40 (constant S_ .f32 0x00000000#32))
    (colI d)
    (mulf (Host.gather gather_S200000x40_S6600000x1_S6600000x40_1_0_n_n_0_1_140 H (colI (wrap s)))
      (broadcastInDim S6600000x40 ![0, 1] bcast_S6600000x1_S6600000x40_0_1 (broadcastInDim S6600000x1 ![0] bcast_S6600000_S6600000x1_0 n)))

end Cert.ReferenceIdeal.Chains

end
-- ==== Proof.Spec.lean ====
/-
  The three dense stages of a two-layer graph convolution, each as ONE function of whole arrays, index by index,
  on the extended reals. Nothing here mentions a program: the kernel's three tiled calls and the reference's host
  operations are each shown elsewhere to compute these functions.

  * `proj1 X W`      : the feature matrix times the first weights, (r, j) ↦ Σ_q X(r,q) · W(q,j).
  * `proj2 A b W`    : bias row added, rectified against the zero word, times the second weights,
                        (r, j) ↦ Σ_q max (A(r,q) + b(0,q)) 0 · W(q,j).
  * `logSoftmaxBias` : bias row added, then the row-wise log-softmax in its shifted form: with z = A(r,·) + b(0,·)
                        and M the row's maximum (a fold of `max` from the −∞ word),
                        (r, j) ↦ (z j − M) − log Σ_q exp (z q − M).
  The two float words (0 and −∞) are kept as words: both sides carry the same word, so neither is evaluated.
-/
import Idealize.ShloMosaic.PureOps.Ideal
import Idealize.ShloMosaic.Lib.ValueIdx

noncomputable section

namespace Cert.Spec

open Idealize.ShloMosaic Idealize.ShloMosaic.ValueIdx
open scoped BigOperators

/-- A rank-2 array of extended reals with literal extents. -/
abbrev Arr (n m : Nat) : Type := (⟨2, ![n, m]⟩ : Shape).Idx → EReal

/-- The zero word and the −∞ word of f32, read at the extended reals. -/
abbrev zeroW : EReal := Ideal.ofBits .f32 0x00000000#32
abbrev negInfW : EReal := Ideal.ofBits .f32 0xFF800000#32

/-- (r, j) ↦ Σ_q X(r,q) · W(q,j): 200000 rows, contraction over 128, 16 columns. -/
def proj1 (X : Arr 200000 128) (W : Arr 128 16) : Arr 200000 16 :=
  fun i => ∑ q : Fin 128, X (ix2 (i 0) q) * W (ix2 q (i 1))

/-- (r, j) ↦ Σ_q max (A(r,q) + b(0,q)) 0 · W(q,j): contraction over 16, 40 columns. -/
def proj2 (A : Arr 200000 16) (b : Arr 1 16) (W : Arr 16 40) : Arr 200000 40 :=
  fun i => ∑ q : Fin 16, max (A (ix2 (i 0) q) + b (ix2 0 q)) zeroW * W (ix2 q (i 1))

/-- A row's maximum: the fold of `max` over the 40 entries from the −∞ word. -/
def rowMax (z : Fin 40 → EReal) : EReal := (Finset.univ : Finset (Fin 40)).fold max negInfW z

/-- The shifted log-softmax of one row. -/
def logSoftmaxRow (z : Fin 40 → EReal) (j : Fin 40) : EReal :=
  (z j - rowMax z) - Ideal.log (∑ q : Fin 40, Ideal.exp (z q - rowMax z))

/-- Bias row added, then the row-wise log-softmax. -/
def logSoftmaxBias (A : Arr 200000 40) (b : Arr 1 40) : Arr 200000 40 :=
  fun i => logSoftmaxRow (fun q => A (ix2 (i 0) q) + b (ix2 0 q)) (i 1)

/-- Taking the maximum with the fold's own starting value changes nothing: the fold is at least its start. -/
theorem max_start_rowMax (z : Fin 40 → EReal) : max negInfW (rowMax z) = rowMax z :=
  max_eq_right (Finset.le_fold_max (b := negInfW) (f := z) (s := Finset.univ) negInfW |>.mpr (Or.inl le_rfl))

end Cert.Spec

end
-- ==== Proof.K0.lean ====
/-
  The first tiled call (40 row tiles of 5000 rows): each tile multiplies its 5000×128 block of the features by the whole
  128×16 weight matrix. A row of the product depends on that row of the features only, so the 40 written-back blocks are
  the restrictions of ONE array, (r, j) ↦ Σ_q X(r,q)·W(q,j), and they tile all 200000 rows.

  Two steps. (1) One tile's result at an entry (p, j): on the extended reals the narrowing of both operands is the
  identity and the accumulator is the zero splat, so the entry is Σ_q x(p,q)·w(q,j), the contraction re-indexed by
  q < 128. (2) Tile t reads rows 5000·t … 5000·t + 4999 of the features and all of the weights, and writes rows
  5000·t … 5000·t + 4999 of the output, so its written-back block is the block of the whole product; row r of the
  output lies in the block of tile r / 5000 < 40, hence the blocks cover the array and it ends as the product.
-/
import proofs.«119924_j85598698209491_1_alg».proof.Proof.Gen.KernelIdeal.Frame
import proofs.«119924_j85598698209491_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-- Zero offsets on both axes. -/
theorem zero_offsets : (![0, 0] : Fin 2 → Nat) = fun _ => 0 := funext fun a => by fin_cases a <;> rfl

/-! ## One tile's product at an entry -/

/-- The left operand of the tile's product is read at the output's row … -/
theorem lhs_tile_0 (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
/-- … and at the contracted position along its columns. -/
theorem lhs_tile_1 (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q
/-- The right operand is read at the contracted position along its rows … -/
theorem rhs_tile_0 (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q
/-- … and at the output's column. -/
theorem rhs_tile_1 (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- Entry (p, j) of a tile's result: the change of float format is the identity on the extended reals and the
    accumulator is the zero splat, so what is left is Σ_q x(p,q) · w(q,j). -/
theorem tile_apply (x : Vec Ideal S5000x128 .f32) (w : Vec Ideal S128x16 .f32) (p : Fin 5000) (j : Fin 16) :
    k0_pay1 (F := Ideal) x w (ix2 p j) = ∑ q : Fin 128, x (ix2 p q) * w (ix2 q j) := by
  unfold k0_pay1
  simp only [matmul]
  rw [Ideal.matmul_constant_zero_apply, ← Equiv.sum_comp (contrEquiv1 dot_S5000x128_S128x16_S5000x16_1_0_0_1_n_n 128 rfl rfl).symm]
  refine Finset.sum_congr rfl fun k _ => ?_
  have hk := contrEquiv1_symm_val dot_S5000x128_S128x16_S5000x16_1_0_0_1_n_n 128 rfl rfl k
  have el : dot_S5000x128_S128x16_S5000x16_1_0_0_1_n_n.lhsIdx (ix2 p j) ((contrEquiv1 dot_S5000x128_S128x16_S5000x16_1_0_0_1_n_n 128 rfl rfl).symm k) = ix2 p k := funext fun a => Fin.ext (by
    match a with
    | ⟨0, _⟩ => exact lhs_tile_0 _ _
    | ⟨1, _⟩ => exact (lhs_tile_1 _ _).trans hk)
  have er : dot_S5000x128_S128x16_S5000x16_1_0_0_1_n_n.rhsIdx (ix2 p j) ((contrEquiv1 dot_S5000x128_S128x16_S5000x16_1_0_0_1_n_n 128 rfl rfl).symm k) = ix2 k j := funext fun a => Fin.ext (by
    match a with
    | ⟨0, _⟩ => exact (rhs_tile_0 _ _).trans hk
    | ⟨1, _⟩ => exact rhs_tile_1 _ _)
  rw [el, er]
  rfl

/-- Entry (p, j) of a tile's result is entry i of the whole product, as soon as row p of the tile's block is row
    `i 0` of the feature array, the weight block is the weight array, and j is the column `i 1`. -/
theorem tile_entry (x : Vec Ideal S5000x128 .f32) (w : Vec Ideal S128x16 .f32)
    (X : Cert.Spec.Arr 200000 128) (W : Cert.Spec.Arr 128 16) (p : Fin 5000) (j : Fin 16) (i : S200000x16.Idx)
    (hx : ∀ q : Fin 128, x (ix2 p q) = X (ix2 (i 0) q)) (hw : ∀ q : Fin 128, w (ix2 q j) = W (ix2 q (i 1))) :
    k0_pay1 (F := Ideal) x w (ix2 p j) = Cert.Spec.proj1 X W i := by
  rw [tile_apply]
  unfold Cert.Spec.proj1
  exact Finset.sum_congr rfl fun q _ => congrArg₂ (· * ·) (hx q) (hw q)

/-! ## From the 40 tiles to the array -/

-- The TensorCore's buffer contents when the region is entered: a parameter, as in the generated frame.
variable (V : (c : Dev nD) → (b : Ref sig .tc) → Buf (Elt Ideal) ((c : Thread nD τ).loc b))

/-- The block indices, decided once over the 40 tiles: tile t takes block (t, 0) of the features and writes block
    (t, 0) of the output; the weights are always block (0, 0). -/
theorem tile_index : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What tile t writes back is block t of the whole product. -/
theorem tile_writes_block (c : Dev nD) (t : Fin cfg0.N) :
    (dat0 (F := Ideal) V c).flushed 2 t
      = ((cfg0.win 2).blk t).view.read (Elt Ideal) (Cert.Spec.proj1 (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x16) zero_offsets]
  obtain ⟨e0, e1, e2, e3, e4, e5⟩ := tile_index t
  funext y
  obtain ⟨p, j, rfl⟩ : ∃ (p : Fin 5000) (j : Fin 16), y = ix2 p j := ⟨y 0, y 1, eq_ix2 y⟩
  refine tile_entry (iblk0 V c 0 t) (iblk0 V c 1 t) (V c main_arg0) (V c main_arg2) p j
    (((cfg0.win 2).blk t).view.emb (ix2 p j)) (fun q => ?_) (fun q => ?_)
  · show V c main_arg0 (((cfg0.win 0).blk t).view.emb (ix2 p q)) = V c main_arg0 _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * q.val = q.val; omega
  · show V c main_arg2 (((cfg0.win 1).blk t).view.emb (ix2 q j)) = V c main_arg2 _
    refine congrArg (V c main_arg2) (funext fun a => Fin.ext ?_)
    match a with
    | ⟨0, _⟩ => show win0_1.index t (0 : Fin 2) * 128 + 1 * q.val = q.val; omega
    | ⟨1, _⟩ => show win0_1.index t (1 : Fin 2) * 16 + 1 * j.val = win0_2.index t (1 : Fin 2) * 16 + 1 * j.val; omega

/-- An index of the output array lies in tile t's block iff each coordinate lies in the block's range on its axis. -/
theorem mem_tile_block (t : Fin cfg0.N) (i : S200000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- The 40 blocks of 5000 rows tile all 200000 rows: row r lies in the block of tile r / 5000. -/
theorem tiles_cover (i : S200000x16.Idx) :
    ∃ t : Fin cfg0.N, (cfg0.win 2).flush t = true ∧ i ∈ ((cfg0.win 2).blk t).view.set := by
  have hi0 : (i 0).val < 200000 := (i 0).isLt
  have hi1 : (i 1).val < 16 := (i 1).isLt
  have ht : (i 0).val / 5000 < cfg0.N := by show (i 0).val / 5000 < 40; omega
  refine ⟨⟨(i 0).val / 5000, ht⟩, flush0_2 _, ?_⟩
  rw [mem_tile_block]
  obtain ⟨-, -, -, -, e4, e5⟩ := tile_index ⟨(i 0).val / 5000, ht⟩
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; rw [e4]; show (i 0).val / 5000 * 5000 ≤ (i 0).val ∧ (i 0).val < (i 0).val / 5000 * 5000 + 5000; omega
  | ⟨1, _⟩ => show win0_2.index ⟨(i 0).val / 5000, ht⟩ (1 : Fin 2) * 16 ≤ (i 1).val ∧ (i 1).val < win0_2.index ⟨(i 0).val / 5000, ht⟩ (1 : Fin 2) * 16 + 16; rw [e5]; omega

/-- The output array after the call is the whole product `Spec.proj1` of the two input arrays as the region finds them. -/
theorem arr (c : Dev nD) :
    (dat0 (F := Ideal) V c).arrAt 2 cfg0.N = Cert.Spec.proj1 (V c main_arg0) (V c main_arg2) :=
  (dat0 (F := Ideal) V c).arrAt_eq_of_cover 2 _ (fun t _ => tile_writes_block V c t) tiles_cover

end Cert.KernelIdeal.Region0

end
-- ==== Proof.K1.lean ====
/-
  The second tiled call: each tile adds the bias row to its 5000×16 block, rectifies, and multiplies by the whole 16×40
  weight matrix. Row-local again: the 40 blocks are the restrictions of (r, j) ↦ Σ_q max (A(r,q) + b(0,q)) 0 · W(q,j).

  The steps: the tile's arithmetic at one entry (p, j) of its 5000×40 result is Σ_q max (x(p,q) + β(0,q)) 0 · w(q,j) over
  the tile's own three blocks x, β, w; at tile t the block x is rows 5000·t … 5000·t + 4999 of A, while β and w are all
  of b and W; so what tile t writes back is rows 5000·t … 5000·t + 4999 of the one array above; row r lies in the tile
  r / 5000, and since r < 200000 that is one of the 40 tiles, so the tiles fill the whole output.
-/
import proofs.«119924_j85598698209491_1_alg».proof.Proof.Gen.KernelIdeal.Frame
import proofs.«119924_j85598698209491_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-- The offset (0, 0) written as a list of two zeros is the constant-zero offset. -/
theorem zero_off : (![0, 0] : Fin 2 → Nat) = fun _ => 0 := funext fun a => by fin_cases a <;> rfl

/-! ## The tile's matrix product at one entry

The product contracts the left factor's column axis against the right factor's row axis. Entry (p, j) of the result reads
the left factor along row p and the right factor along column j: the four facts below say, axis by axis, which coordinate
of each factor a result index and a contraction index address. -/

/-- Left factor, row axis: the result's row. -/
theorem lhs_row (i : S5000x40.Idx) (q : dot_S5000x16_S16x40_S5000x40_1_0_0_1_n_n.contr.Idx) :
    (dot_S5000x16_S16x40_S5000x40_1_0_0_1_n_n.lhsIdx i q 0).val = (i 0).val := by
  unfold DotDims.lhsIdx
  rw [dif_neg (show ¬(0 : Fin S5000x16.rank) ∈ dot_S5000x16_S16x40_S5000x40_1_0_0_1_n_n.lhsBatch by decide), dif_pos (show (0 : Fin S5000x16.rank) ∈ dot_S5000x16_S16x40_S5000x40_1_0_0_1_n_n.lhsNonContracting by decide)]
  rfl

/-- Left factor, column axis: the contraction index. -/
theorem lhs_contr (i : S5000x40.Idx) (q : dot_S5000x16_S16x40_S5000x40_1_0_0_1_n_n.contr.Idx) :
    (dot_S5000x16_S16x40_S5000x40_1_0_0_1_n_n.lhsIdx i q 1).val = (q ⟨0, by decide⟩).val :=
  dot_S5000x16_S16x40_S5000x40_1_0_0_1_n_n.lhsIdx_val_of_single rfl i q

/-- Right factor, row axis: the contraction index. -/
theorem rhs_contr (i : S5000x40.Idx) (q : dot_S5000x16_S16x40_S5000x40_1_0_0_1_n_n.contr.Idx) :
    (dot_S5000x16_S16x40_S5000x40_1_0_0_1_n_n.rhsIdx i q 0).val = (q ⟨0, by decide⟩).val :=
  dot_S5000x16_S16x40_S5000x40_1_0_0_1_n_n.rhsIdx_val_of_single rfl i q

/-- Right factor, column axis: the result's column. -/
theorem rhs_col (i : S5000x40.Idx) (q : dot_S5000x16_S16x40_S5000x40_1_0_0_1_n_n.contr.Idx) :
    (dot_S5000x16_S16x40_S5000x40_1_0_0_1_n_n.rhsIdx i q 1).val = (i 1).val := by
  unfold DotDims.rhsIdx
  rw [dif_neg (show ¬(1 : Fin S16x40.rank) ∈ dot_S5000x16_S16x40_S5000x40_1_0_0_1_n_n.rhsBatch by decide), dif_pos (show (1 : Fin S16x40.rank) ∈ dot_S5000x16_S16x40_S5000x40_1_0_0_1_n_n.rhsNonContracting by decide)]
  rfl

/-- A 5000×16 by 16×40 product accumulated onto the zero matrix is, at entry (p, j), the plain sum Σ_q l(p,q) · r(q,j):
    adding to zero changes nothing, and the one-axis contraction index is a number below 16. -/
theorem tile_product (l : FVec Ideal S5000x16 .bf16) (r : FVec Ideal S16x40 .bf16) (p : Fin 5000) (j : Fin 40) :
    matmul dot_S5000x16_S16x40_S5000x40_1_0_0_1_n_n none l r (constant S5000x40 .f32 0x00000000#32) (ix2 p j)
      = ∑ q : Fin 16, l (ix2 p q) * r (ix2 q j) := by
  simp only [matmul]
  rw [Ideal.matmul_constant_zero_apply, ← Equiv.sum_comp (ValueIdx.contrEquiv1 dot_S5000x16_S16x40_S5000x40_1_0_0_1_n_n 16 rfl rfl).symm]
  refine Finset.sum_congr rfl fun k _ => ?_
  have hk := ValueIdx.contrEquiv1_symm_val dot_S5000x16_S16x40_S5000x40_1_0_0_1_n_n 16 rfl rfl k
  have el : dot_S5000x16_S16x40_S5000x40_1_0_0_1_n_n.lhsIdx (ix2 p j) ((ValueIdx.contrEquiv1 dot_S5000x16_S16x40_S5000x40_1_0_0_1_n_n 16 rfl rfl).symm k) = ix2 p k := funext fun a => Fin.ext (by
    match a with
    | ⟨0, _⟩ => exact lhs_row _ _
    | ⟨1, _⟩ => exact (lhs_contr _ _).trans hk)
  have er : dot_S5000x16_S16x40_S5000x40_1_0_0_1_n_n.rhsIdx (ix2 p j) ((ValueIdx.contrEquiv1 dot_S5000x16_S16x40_S5000x40_1_0_0_1_n_n 16 rfl rfl).symm k) = ix2 k j := funext fun a => Fin.ext (by
    match a with
    | ⟨0, _⟩ => exact (rhs_contr _ _).trans hk
    | ⟨1, _⟩ => exact rhs_col _ _)
  rw [el, er]

/-! ## The tile's arithmetic at one entry -/

/-- Entry (p, j) of what a tile computes from its blocks x0 (5000×16), x1 (the 1×16 bias row) and x2 (16×40): on the
    extended reals a change of float format is the identity, a cast to the same shape is the identity, the bias row spread
    over 5000 rows reads its one row, and the rectifier is the maximum with the zero word, which stays a word. -/
theorem payload_apply (x0 : Vec Ideal S5000x16 .f32) (x1 : Vec Ideal S1x16 .f32) (x2 : Vec Ideal S16x40 .f32)
    (p : Fin 5000) (j : Fin 40) :
    k1_pay1 (F := Ideal) x0 x1 x2 (ix2 p j)
      = ∑ q : Fin 16, max (x0 (ix2 p q) + x1 (ix2 (0 : Fin 1) q)) Cert.Spec.zeroW * x2 (ix2 q j) := by
  unfold k1_pay1
  rw [tile_product]
  refine Finset.sum_congr rfl fun q _ => ?_
  rw [truncf_apply, truncf_apply, maximumf_apply, addf_apply, broadcast_apply, shapeCast_self, shapeCast_self,
    broadcastTo_1b_ab_apply]
  rfl

/-- If row `y 0` of the block x0 is row `i 0` of A, the block x1 is b, and column `y 1` of the block x2 is column `i 1` of W,
    then the tile's entry y is entry i of the whole-array function: the two sums agree term by term. -/
theorem block_entry (x0 : Vec Ideal S5000x16 .f32) (x1 : Vec Ideal S1x16 .f32) (x2 : Vec Ideal S16x40 .f32)
    (A : Cert.Spec.Arr 200000 16) (b : Cert.Spec.Arr 1 16) (W : Cert.Spec.Arr 16 40)
    (y : S5000x40.Idx) (i : S200000x40.Idx)
    (h0 : ∀ q : Fin 16, x0 (ix2 (y 0) q) = A (ix2 (i 0) q))
    (h1 : ∀ q : Fin 16, x1 (ix2 (0 : Fin 1) q) = b (ix2 0 q))
    (h2 : ∀ q : Fin 16, x2 (ix2 q (y 1)) = W (ix2 q (i 1))) :
    k1_pay1 (F := Ideal) x0 x1 x2 y = Cert.Spec.proj2 A b W i := by
  obtain ⟨p, j, rfl⟩ : ∃ (p : Fin 5000) (j : Fin 40), y = ix2 p j := ⟨y 0, y 1, eq_ix2 y⟩
  rw [payload_apply]
  unfold Cert.Spec.proj2
  refine Finset.sum_congr rfl fun q _ => ?_
  rw [h0 q, h1 q, h2 q]

-- The TensorCore's buffer contents when the region is entered: a parameter, as in the generated frame.
variable (V : (c : Dev nD) → (b : Ref sig .tc) → Buf (Elt Ideal) ((c : Thread nD τ).loc b))

/-! ## Which blocks tile t reads and writes -/

/-- Over the 40 tiles: the input block of A and the output block are both block (t, 0) of their arrays; the bias row and
    the weight matrix are each their array's one block (0, 0). -/
theorem tile_indices : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- What tile t writes back is the whole-array function read through tile t's 5000×40 rectangle of the output: entry y
    of a block sits in its array at (block index × block size + y) on each axis, so row `y 0` of the input block is the
    output entry's own row of A, and the other two blocks are b and W themselves. -/
theorem written_back (c : Dev nD) (t : Fin cfg1.N) :
    (dat1 (F := Ideal) V c).flushed 3 t
      = ((cfg1.win 3).blk t).view.read (Elt Ideal) (Cert.Spec.proj2 (V c main_v43) (V c main_v44) (V c main_arg4)) := by
  show (cfg1.win 3).cut (grid1.coords t) ((dat1 V c).after 3 t) = _
  rw [after1_3]
  unfold out1_3
  rw [View.canon_unit_zero zero_off]
  simp only [View.ld_unit_zero (S := S5000x16) zero_off, View.ld_unit_zero (S := S1x16) zero_off, View.ld_unit_zero (S := S16x40) zero_off]
  obtain ⟨e0, e1, e2, e3, e4, e5, e6, e7⟩ := tile_indices t
  funext y
  refine block_entry (iblk1 V c 0 t) (iblk1 V c 1 t) (iblk1 V c 2 t) (V c main_v43) (V c main_v44) (V c main_arg4) y
    (((cfg1.win 3).blk t).view.emb y) (fun q => ?_) (fun q => ?_) (fun q => ?_)
  · show V c main_v43 (((cfg1.win 0).blk t).view.emb (ix2 (y 0) q)) = V c main_v43 (ix2 ((((cfg1.win 3).blk t).view.emb y) 0) q)
    refine congrArg (V c main_v43) (funext fun a => Fin.ext ?_)
    match a with
    | ⟨0, _⟩ => show win1_0.index t (0 : Fin 2) * 5000 + 1 * (y 0).val = win1_3.index t (0 : Fin 2) * 5000 + 1 * (y 0).val; omega
    | ⟨1, _⟩ => show win1_0.index t (1 : Fin 2) * 16 + 1 * q.val = q.val; omega
  · show V c main_v44 (((cfg1.win 1).blk t).view.emb (ix2 (0 : Fin 1) q)) = V c main_v44 (ix2 0 q)
    refine congrArg (V c main_v44) (funext fun a => Fin.ext ?_)
    match a with
    | ⟨0, _⟩ => show win1_1.index t (0 : Fin 2) * 1 + 1 * 0 = 0; omega
    | ⟨1, _⟩ => show win1_1.index t (1 : Fin 2) * 16 + 1 * q.val = q.val; omega
  · show V c main_arg4 (((cfg1.win 2).blk t).view.emb (ix2 q (y 1))) = V c main_arg4 (ix2 q ((((cfg1.win 3).blk t).view.emb y) 1))
    refine congrArg (V c main_arg4) (funext fun a => Fin.ext ?_)
    match a with
    | ⟨0, _⟩ => show win1_2.index t (0 : Fin 2) * 16 + 1 * q.val = q.val; omega
    | ⟨1, _⟩ => show win1_2.index t (1 : Fin 2) * 40 + 1 * (y 1).val = win1_3.index t (1 : Fin 2) * 40 + 1 * (y 1).val; omega

/-! ## The 40 tiles fill the output -/

/-- An output index lies in tile t's rectangle iff on each axis its coordinate is within one block size of the block's start. -/
theorem mem_tile (t : Fin cfg1.N) (i : S200000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_v45).slice (win1_3.rect t)).set ↔ _
  rw [View.set_slice_whole, Rect.mem_set_unit]
  exact Iff.rfl

/-- Row r of the output lies in tile r / 5000, which exists because r < 200000 = 40 · 5000; every tile writes back. -/
theorem tiles_cover (i : S200000x40.Idx) :
    ∃ t : Fin cfg1.N, (cfg1.win 3).flush t = true ∧ i ∈ ((cfg1.win 3).blk t).view.set := by
  have hN : grid1.N = 40 := N_1
  have hi0 : (i 0).val < 200000 := (i 0).isLt
  have hi1 : (i 1).val < 40 := (i 1).isLt
  have ht : (i 0).val / 5000 < grid1.N := by rw [hN]; omega
  obtain ⟨-, -, -, -, -, -, e6, e7⟩ := tile_indices ⟨(i 0).val / 5000, ht⟩
  refine ⟨⟨(i 0).val / 5000, ht⟩, flush1_3 _, ?_⟩
  rw [mem_tile]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win1_3.index ⟨(i 0).val / 5000, ht⟩ (1 : Fin 2) * 40 ≤ (i 1).val ∧ (i 1).val < win1_3.index ⟨(i 0).val / 5000, ht⟩ (1 : Fin 2) * 40 + 40
    rw [e7]
    omega

/-- The output array after the call is `Spec.proj2` of the three input arrays as the region finds them. -/
theorem arr (c : Dev nD) :
    (dat1 (F := Ideal) V c).arrAt 3 cfg1.N = Cert.Spec.proj2 (V c main_v43) (V c main_v44) (V c main_arg4) :=
  (dat1 (F := Ideal) V c).arrAt_eq_of_cover 3 _ (fun t _ => written_back V c t) tiles_cover

end Cert.KernelIdeal.Region1

end
-- ==== Proof.K2.lean ====
/-
  The third tiled call: each tile adds the bias row to its 5000×40 block and takes the row-wise log-softmax in its
  shifted form. Row-local: the 40 blocks are the restrictions of `Spec.logSoftmaxBias`.
-/
import proofs.«119924_j85598698209491_1_alg».proof.Proof.Gen.KernelIdeal.Frame
import proofs.«119924_j85598698209491_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

section Layout
variable {α : Type}

/-- A length-`a` vector viewed as a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along its rows to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The block with the bias row added, at `(p, q)`. -/
theorem biased_apply (x0 : FVec Ideal S5000x40 .f32) (x1 : FVec Ideal S1x40 .f32)
    (h1 : S5000x40.ShapeCasts S5000x40) (h2 : S1x40.ShapeCasts S1x40) (h3 : S1x40.Broadcasts S5000x40) (p : Fin 5000) (q : Fin 40) :
    (addf (shapeCast S5000x40 x0 h1) (broadcastTo S5000x40 (shapeCast S1x40 x1 h2) h3) : FVec Ideal S5000x40 .f32) (ix2 p q)
      = x0 (ix2 p q) + x1 (ix2 0 q) := by
  rw [addf_apply, shapeCast_self, shapeCast_self, broadcastTo_1b_ab_apply]

/-- A row's maximum: the lane reduction of a `[5000, 40]` block at row `p` is the fold of `max` over that row from the −∞ word. -/
theorem rowMax_apply (y : FVec Ideal S5000x40 .f32) (h : S5000x40.Reduces [1] S5000) (hφ : FKind.Formats .f32)
    (hacc : (0xFF800000#32 : BitVec 32) = 0xFF800000#32) (p : Fin 5000) :
    multiReduction .maximumf [1] S5000 y 0xFF800000#32 h hφ hacc (ix1 p) = Spec.rowMax (fun q' => y (ix2 p q')) := by
  refine (Ideal.multiReduction_maximumf_single y 0xFF800000#32 h hφ hacc (ix1 p)).trans ?_
  have e : (y ∘ h.lift (ix1 p)) = fun q' : Fin 40 => y (ix2 p q') := by
    funext k
    show y (h.lift (ix1 p) k) = y (ix2 p k)
    congr 1
    funext a
    match a with
    | ⟨0, _⟩ => exact Fin.ext rfl
    | ⟨1, _⟩ => exact Fin.ext rfl
  show (Finset.univ : Finset (Fin 40)).fold max (FloatOps.ofBits .f32 0xFF800000#32) (y ∘ h.lift (ix1 p)) = _
  rw [e, Ideal.ofBits_def]
  rfl

/-- A row's sum: the lane reduction of a `[5000, 40]` block at row `p` is the sum over that row. -/
theorem rowSum_apply (y : FVec Ideal S5000x40 .f32) (h : S5000x40.Reduces [1] S5000) (hφ : FKind.Formats .f32)
    (hacc : (0x00000000#32 : BitVec 32) = 0x00000000#32) (p : Fin 5000) :
    multiReduction .add [1] S5000 y 0x00000000#32 h hφ hacc (ix1 p) = ∑ q' : Fin 40, y (ix2 p q') := by
  refine (Ideal.multiReduction_add_single y 0x00000000#32 h hφ hacc (ix1 p)).trans ?_
  show ∑ k : Fin 40, y (h.lift (ix1 p) k) = _
  refine Finset.sum_congr rfl fun k _ => ?_
  congr 1
  funext a
  match a with
  | ⟨0, _⟩ => exact Fin.ext rfl
  | ⟨1, _⟩ => exact Fin.ext rfl

/-- The shifted log-softmax of a `[5000, 40]` block as the body writes it (the row maximum and the row sum of exponentials
    each as a keepdims column broadcast back along the row), read at `(p, q)`: the specification's row function of row `p`. -/
theorem logSoftmax_apply (y : FVec Ideal S5000x40 .f32) (hr : S5000x40.Reduces [1] S5000) (hφ : FKind.Formats .f32)
    (hmax : (0xFF800000#32 : BitVec 32) = 0xFF800000#32) (hadd : (0x00000000#32 : BitVec 32) = 0x00000000#32)
    (hc : S5000.ShapeCasts S5000x1) (hb : S5000x1.Broadcasts S5000x40) (p : Fin 5000) (q : Fin 40) :
    (subf (subf y (broadcastTo S5000x40 (shapeCast S5000x1 (multiReduction .maximumf [1] S5000 y 0xFF800000#32 hr hφ hmax) hc) hb))
        (broadcastTo S5000x40 (log (shapeCast S5000x1 (multiReduction .add [1] S5000
          (exp (subf y (broadcastTo S5000x40 (shapeCast S5000x1 (multiReduction .maximumf [1] S5000 y 0xFF800000#32 hr hφ hmax) hc) hb)))
          0x00000000#32 hr hφ hadd) hc)) hb) : FVec Ideal S5000x40 .f32) (ix2 p q)
      = Spec.logSoftmaxRow (fun q' => y (ix2 p q')) q := by
  -- the shifted row: the block minus its row maximum, at any column of row p
  have shifted : ∀ c : Fin 40,
      (subf y (broadcastTo S5000x40 (shapeCast S5000x1 (multiReduction .maximumf [1] S5000 y 0xFF800000#32 hr hφ hmax) hc) hb) : FVec Ideal S5000x40 .f32) (ix2 p c)
        = y (ix2 p c) - Spec.rowMax (fun q' => y (ix2 p q')) := fun c => by
    rw [subf_apply, broadcastTo_a1_ab_apply, shapeCast_a_a1_apply, rowMax_apply]
  rw [subf_apply, shifted, broadcastTo_a1_ab_apply]
  show _ - FloatOps.log (shapeCast S5000x1 _ hc (ix2 p (0 : Fin 1))) = _
  rw [shapeCast_a_a1_apply, rowSum_apply, Ideal.log_def]
  unfold Spec.logSoftmaxRow
  refine congrArg (fun s => y (ix2 p q) - Spec.rowMax (fun q' => y (ix2 p q')) - Ideal.log s) (Finset.sum_congr rfl fun c _ => ?_)
  exact congrArg Ideal.exp (shifted c)

/-- THE BODY'S PAYLOAD AT `(p, q)`: the specification's row function of the block's row `p` with the bias row added. -/
theorem pay_apply (x0 : Vec Ideal S5000x40 .f32) (x1 : Vec Ideal S1x40 .f32) (p : Fin 5000) (q : Fin 40) :
    k2_pay1 x0 x1 (ix2 p q) = Spec.logSoftmaxRow (fun q' => x0 (ix2 p q') + x1 (ix2 0 q')) q := by
  unfold k2_pay1
  refine (logSoftmax_apply _ _ _ _ _ _ _ p q).trans ?_
  congr 1
  funext q'
  exact biased_apply x0 x1 _ _ _ p q'

-- The TensorCore's buffer contents when the region is entered: a parameter, as in the generated frame.
variable (V : (c : Dev nD) → (b : Ref sig .tc) → Buf (Elt Ideal) ((c : Thread nD τ).loc b))

/-! ## From the blocks to the array -/

theorem hz : (![0, 0] : Fin 2 → Nat) = fun _ => 0 := funext fun a => by fin_cases a <;> rfl

/-- The printed index maps, decided once over the 40 points: the two row-tiled windows sit at block `(t, 0)`, the bias row's
    window at block `(0, 0)`. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input's block at point `t` is rows `5000 t … 5000 t + 4999` of the array the region finds. -/
theorem rows_block_apply (c : Dev nD) (t : Fin cfg2.N) (p : Fin 5000) (q : Fin 40) (r : Fin 200000)
    (hr : r.val = t.val * 5000 + p.val) :
    (iblk2 (F := Ideal) V c 0 t : Vec Ideal S5000x40 .f32) (ix2 p q) = (V c main_v58 : S200000x40.Idx → EReal) (ix2 r q) := by
  obtain ⟨e0, e1, -, -, -, -⟩ := index_facts t
  show V c main_v58 (((cfg2.win 0).blk t).view.emb (ix2 p q)) = V c main_v58 (ix2 r q)
  congr 1
  funext a
  apply Fin.ext
  match a with
  | ⟨0, _⟩ => show win2_0.index t (0 : Fin 2) * 5000 + 1 * p.val = r.val; omega
  | ⟨1, _⟩ => show win2_0.index t (1 : Fin 2) * 40 + 1 * q.val = q.val; omega

/-- The bias window's block at every point is the whole bias row. -/
theorem bias_block_apply (c : Dev nD) (t : Fin cfg2.N) (q : Fin 40) :
    (iblk2 (F := Ideal) V c 1 t : Vec Ideal S1x40 .f32) (ix2 (0 : Fin 1) q) = (V c main_v59 : S1x40.Idx → EReal) (ix2 (0 : Fin 1) q) := by
  obtain ⟨-, -, e2, e3, -, -⟩ := index_facts t
  show V c main_v59 (((cfg2.win 1).blk t).view.emb (ix2 (0 : Fin 1) q)) = V c main_v59 (ix2 (0 : Fin 1) q)
  congr 1
  funext a
  apply Fin.ext
  match a with
  | ⟨0, _⟩ => show win2_1.index t (0 : Fin 2) * 1 + 1 * 0 = 0; omega
  | ⟨1, _⟩ => show win2_1.index t (1 : Fin 2) * 40 + 1 * q.val = q.val; omega

/-- The specification's array at `(r, q)`: the row function of row `r` with the bias row added. -/
theorem spec_apply (A : Cert.Spec.Arr 200000 40) (b : Cert.Spec.Arr 1 40) (r : Fin 200000) (q : Fin 40) :
    Cert.Spec.logSoftmaxBias A b (ix2 r q) = Cert.Spec.logSoftmaxRow (fun q' => A (ix2 r q') + b (ix2 0 q')) q := rfl

/-- WHAT POINT `t` WRITES BACK is block `t` of the specification's array. -/
theorem flushed_eq (c : Dev nD) (t : Fin cfg2.N) :
    (dat2 (F := Ideal) V c).flushed 2 t
      = ((cfg2.win 2).blk t).view.read (Elt Ideal) (Cert.Spec.logSoftmaxBias (V c main_v58) (V c main_v59)) := by
  show (cfg2.win 2).cut (grid2.coords t) ((dat2 V c).after 2 t) = _
  rw [after2_2]
  unfold out2_2
  rw [View.canon_unit_zero hz]
  simp only [View.ld_unit_zero (S := S5000x40) hz, View.ld_unit_zero (S := S1x40) hz]
  obtain ⟨-, -, -, -, e4, e5⟩ := index_facts t
  funext y
  obtain ⟨p, q, rfl⟩ : ∃ (p : Fin 5000) (q : Fin 40), y = ix2 p q := ⟨y 0, y 1, eq_ix2 y⟩
  have ht : t.val < 40 := t.isLt
  let r : Fin 200000 := ⟨t.val * 5000 + p.val, by have := p.isLt; omega⟩
  have hemb : ((cfg2.win 2).blk t).view.emb (ix2 p q) = (ix2 r q : S200000x40.Idx) := by
    funext a
    apply Fin.ext
    match a with
    | ⟨0, _⟩ => show win2_2.index t (0 : Fin 2) * 5000 + 1 * p.val = t.val * 5000 + p.val; omega
    | ⟨1, _⟩ => show win2_2.index t (1 : Fin 2) * 40 + 1 * q.val = q.val; omega
  show k2_pay1 (iblk2 V c 0 t) (iblk2 V c 1 t) (ix2 p q)
      = Cert.Spec.logSoftmaxBias (V c main_v58) (V c main_v59) (((cfg2.win 2).blk t).view.emb (ix2 p q))
  rw [hemb]
  refine (pay_apply (iblk2 V c 0 t) (iblk2 V c 1 t) p q).trans ?_
  refine Eq.trans ?_ (spec_apply (V c main_v58) (V c main_v59) r q).symm
  refine congrArg (fun z => Cert.Spec.logSoftmaxRow z q) (funext fun q' => ?_)
  exact congrArg₂ (· + ·) (rows_block_apply V c t p q' r rfl) (bias_block_apply V c t q')

/-- An index of the array is in point `t`'s block iff each coordinate is in the block's range on its axis. -/
theorem mem_blk (t : Fin cfg2.N) (i : S200000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v60).slice (win2_2.rect t)).set ↔ _
  rw [View.set_slice_whole, Rect.mem_set_unit]
  exact Iff.rfl

/-- The 40 blocks of 5000 rows tile the 200000 rows: row `r` lies in the block of point `r / 5000`. -/
theorem cover (i : S200000x40.Idx) :
    ∃ t : Fin cfg2.N, (cfg2.win 2).flush t = true ∧ i ∈ ((cfg2.win 2).blk t).view.set := by
  have hi0 : (i 0).val < 200000 := (i 0).isLt
  have hi1 : (i 1).val < 40 := (i 1).isLt
  let t : Fin cfg2.N := ⟨(i 0).val / 5000, by show (i 0).val / 5000 < 40; omega⟩
  obtain ⟨-, -, -, -, e4, e5⟩ := index_facts t
  have htv : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 40 ≤ (i 1).val ∧ (i 1).val < win2_2.index t (1 : Fin 2) * 40 + 40; omega

/-- The output array after the call is `Spec.logSoftmaxBias` of the two input arrays as the region finds them. -/
theorem arr (c : Dev nD) :
    (dat2 (F := Ideal) V c).arrAt 2 cfg2.N = Cert.Spec.logSoftmaxBias (V c main_v58) (V c main_v59) :=
  (dat2 (F := Ideal) V c).arrAt_eq_of_cover 2 _ (fun t _ => flushed_eq V c t) cover

end Cert.KernelIdeal.Region2

end
-- ==== Proof.KChain.lean ====
/-
  The kernel's program from the launch to its result, value by value. Its @main is three stretches of host operations, each
  followed by a tiled call. Each stretch is read over an arbitrary starting valuation `W` as the shared graph functions of
  Proof/HostChains.lean (edge lists, edge weights, one aggregation) applied to what `W` holds; each tiled call leaves in its
  output array the specification's dense stage of its input arrays (Proof/K0, K1, K2) and every other buffer untouched.
  Composed along the run this gives the result buffer as

      logSoftmaxBias (agg40 (proj2 (agg16 (proj1 X W₁) s d n) b₁ W₂) s d n) b₂,    s, d the edge lists, n the edge weights,

  a function of the six argument arrays.
-/
import proofs.«119924_j85598698209491_1_alg».proof.Proof.Gen.KernelIdeal.Frame
import proofs.«119924_j85598698209491_1_alg».proof.Proof.HostChains
import proofs.«119924_j85598698209491_1_alg».proof.Proof.Spec
import proofs.«119924_j85598698209491_1_alg».proof.Proof.K0
import proofs.«119924_j85598698209491_1_alg».proof.Proof.K1
import proofs.«119924_j85598698209491_1_alg».proof.Proof.K2

set_option maxRecDepth 16384

noncomputable section

namespace Cert.KernelIdeal.Chain

open Cert.KernelIdeal Cert.KernelIdeal.Gen
open Cert.ReferenceIdeal.Chains
open Idealize.ShloMosaic Idealize.ShloMosaic.TcCoe Idealize.SL.Sem Idealize.ShloMosaic.StableHlo

/-! ## Each host stretch, over any starting valuation -/

section Stretches

variable {F : FTy → Type} [FloatOps F] (W : Valuation τ sig (Elt F))

/-- The operations before the first call, in order (three generated lists: @main's, the inlined `where`, @main's). -/
abbrev entry0 : Valuation τ sig (Elt F) := after hostOps0_2 (after hostOps0_1 (after hostOps0 W))

theorem entry0_src : entry0 W (Proc.devRef .tc main_v3) = srcOf (F := F) (W (Proc.devRef .tc main_arg1)) := by
  show after hostOps0_2 (after hostOps0_1 (after hostOps0 W)) _ = _
  after_results
  try rfl
theorem entry0_dst : entry0 W (Proc.devRef .tc main_v6) = dstOf (F := F) (W (Proc.devRef .tc main_arg1)) := by
  show after hostOps0_2 (after hostOps0_1 (after hostOps0 W)) _ = _
  after_results
  try rfl
/-- After the first list: the sources, the destinations, the test "degree > 0", the degree's inverse root, a zero. -/
theorem pre_src : after hostOps0 W (Proc.devRef .tc main_v3) = srcOf (F := F) (W (Proc.devRef .tc main_arg1)) := by
  after_results
  try rfl
theorem pre_dst : after hostOps0 W (Proc.devRef .tc main_v6) = dstOf (F := F) (W (Proc.devRef .tc main_arg1)) := by
  after_results
  try rfl
theorem pre_pos : after hostOps0 W (Proc.devRef .tc main_v12)
    = cmpf (F := F) .ogt (degOf (dstOf (W (Proc.devRef .tc main_arg1)))) (broadcastInDim S200000 ![] bcast_S_S200000 (constant S_ .f32 0x00000000#32)) := by
  after_results
  try rfl
theorem pre_rsqrt : after hostOps0 W (Proc.devRef .tc main_v13) = Host.rsqrt (degOf (F := F) (dstOf (W (Proc.devRef .tc main_arg1)))) := by
  after_results
  try rfl
theorem pre_zero : after hostOps0 W (Proc.devRef .tc main_cst_2) = (constant S_ .f32 0x00000000#32 : (⟨S_, .f32⟩ : BufTy).Contents (Elt F)) := by
  after_results
  try rfl
/-- The inlined `where`: the inverse root where the test holds, else the zero. -/
theorem where_dinv : after hostOps0_1 W (Proc.devRef .tc main_v14)
    = select (W (Proc.devRef .tc main_v12)) (W (Proc.devRef .tc main_v13)) (broadcastInDim S200000 ![] bcast_S_S200000 (W (Proc.devRef .tc main_cst_2))) := by
  after_results
  try rfl
theorem where_src : after hostOps0_1 W (Proc.devRef .tc main_v3) = W (Proc.devRef .tc main_v3) := by
  after_results
  try rfl
theorem where_dst : after hostOps0_1 W (Proc.devRef .tc main_v6) = W (Proc.devRef .tc main_v6) := by
  after_results
  try rfl
set_option maxHeartbeats 1600000 in
/-- The third list: an edge's weight from the per-node factor at its two ends. -/
theorem weights : after hostOps0_2 W (Proc.devRef .tc main_v29)
    = mulf (Host.gather gather_S200000_S6600000x1_S6600000_n_0_n_n_0_1_1 (W (Proc.devRef .tc main_v14)) (colI (F := F) (wrap (W (Proc.devRef .tc main_v3)))))
        (Host.gather gather_S200000_S6600000x1_S6600000_n_0_n_n_0_1_1 (W (Proc.devRef .tc main_v14)) (colI (F := F) (wrap (W (Proc.devRef .tc main_v6))))) := by
  after_results_simp
  try rfl
theorem entry0_norm : entry0 W (Proc.devRef .tc main_v29)
    = normOf (F := F) (srcOf (W (Proc.devRef .tc main_arg1))) (dstOf (W (Proc.devRef .tc main_arg1))) := by
  show after hostOps0_2 (after hostOps0_1 (after hostOps0 W)) _ = _
  rw [weights (after hostOps0_1 (after hostOps0 W)), where_dinv (after hostOps0 W), where_src (after hostOps0 W),
    where_dst (after hostOps0 W), pre_pos W, pre_rsqrt W, pre_zero W, pre_src W, pre_dst W]
  rfl
theorem entry0_arg0 : entry0 W (Proc.devRef .tc main_arg0) = W (Proc.devRef .tc main_arg0) := by
  show after hostOps0_2 (after hostOps0_1 (after hostOps0 W)) _ = _
  after_results
  try rfl
theorem entry0_arg2 : entry0 W (Proc.devRef .tc main_arg2) = W (Proc.devRef .tc main_arg2) := by
  show after hostOps0_2 (after hostOps0_1 (after hostOps0 W)) _ = _
  after_results
  try rfl
theorem entry0_arg3 : entry0 W (Proc.devRef .tc main_arg3) = W (Proc.devRef .tc main_arg3) := by
  show after hostOps0_2 (after hostOps0_1 (after hostOps0 W)) _ = _
  after_results
  try rfl
theorem entry0_arg4 : entry0 W (Proc.devRef .tc main_arg4) = W (Proc.devRef .tc main_arg4) := by
  show after hostOps0_2 (after hostOps0_1 (after hostOps0 W)) _ = _
  after_results
  try rfl
theorem entry0_arg5 : entry0 W (Proc.devRef .tc main_arg5) = W (Proc.devRef .tc main_arg5) := by
  show after hostOps0_2 (after hostOps0_1 (after hostOps0 W)) _ = _
  after_results
  try rfl

set_option maxHeartbeats 1600000 in
/-- Between the first and the second call: the first aggregation, and the first bias as a row. -/
theorem mid1_agg : after hostOps1 W (Proc.devRef .tc main_v43)
    = agg16 (F := F) (W (Proc.devRef .tc main_v30)) (W (Proc.devRef .tc main_v3)) (W (Proc.devRef .tc main_v6)) (W (Proc.devRef .tc main_v29)) := by
  after_results_simp
  try rfl
theorem mid1_src : after hostOps1 W (Proc.devRef .tc main_v3) = W (Proc.devRef .tc main_v3) := by
  after_results
  try rfl
theorem mid1_dst : after hostOps1 W (Proc.devRef .tc main_v6) = W (Proc.devRef .tc main_v6) := by
  after_results
  try rfl
theorem mid1_norm : after hostOps1 W (Proc.devRef .tc main_v29) = W (Proc.devRef .tc main_v29) := by
  after_results
  try rfl
theorem mid1_arg4 : after hostOps1 W (Proc.devRef .tc main_arg4) = W (Proc.devRef .tc main_arg4) := by
  after_results
  try rfl
theorem mid1_arg5 : after hostOps1 W (Proc.devRef .tc main_arg5) = W (Proc.devRef .tc main_arg5) := by
  after_results
  try rfl

set_option maxHeartbeats 1600000 in
/-- Between the second and the third call: the second aggregation, and the second bias as a row. -/
theorem mid2_agg : after hostOps2 W (Proc.devRef .tc main_v58)
    = agg40 (F := F) (W (Proc.devRef .tc main_v45)) (W (Proc.devRef .tc main_v3)) (W (Proc.devRef .tc main_v6)) (W (Proc.devRef .tc main_v29)) := by
  after_results_simp
  try rfl

/-- The two bias vectors reach their calls reshaped to one row. -/
theorem mid1_bias : after hostOps1 W (Proc.devRef .tc main_v44)
    = (shapeCast S1x16 (W (Proc.devRef .tc main_arg3)) shapeCasts_S16_S1x16 : (⟨S1x16, .f32⟩ : BufTy).Contents (Elt F)) := by
  after_results
  try rfl
theorem mid2_bias : after hostOps2 W (Proc.devRef .tc main_v59)
    = (shapeCast S1x40 (W (Proc.devRef .tc main_arg5)) shapeCasts_S40_S1x40 : (⟨S1x40, .f32⟩ : BufTy).Contents (Elt F)) := by
  after_results
  try rfl

end Stretches

/-! ## Along the run, at the ideal instance -/

section Run

variable (m : (ℓ : Loc nD τ sig) → Buf (Elt Ideal) ℓ) (ρ : Dev nD → PrngReg) (c : Dev nD)

/-- The edge lists and the edge weights, of the launch memory's edge array. -/
abbrev srcs := srcOf (F := Ideal) (m ((c : Thread nD τ).loc main_arg1))
abbrev dsts := dstOf (F := Ideal) (m ((c : Thread nD τ).loc main_arg1))
abbrev norms := normOf (F := Ideal) (srcs m c) (dsts m c)

/-! ### At the first call's entry -/
theorem at3_src : W3 m ρ c (Proc.devRef .tc main_v3) = srcs m c := entry0_src (W0 m ρ c)
theorem at3_dst : W3 m ρ c (Proc.devRef .tc main_v6) = dsts m c := entry0_dst (W0 m ρ c)
theorem at3_norm : W3 m ρ c (Proc.devRef .tc main_v29) = norms m c := entry0_norm (W0 m ρ c)
theorem at3_arg0 : W3 m ρ c (Proc.devRef .tc main_arg0) = m ((c : Thread nD τ).loc main_arg0) := entry0_arg0 (W0 m ρ c)
theorem at3_arg2 : W3 m ρ c (Proc.devRef .tc main_arg2) = m ((c : Thread nD τ).loc main_arg2) := entry0_arg2 (W0 m ρ c)
theorem at3_arg3 : W3 m ρ c (Proc.devRef .tc main_arg3) = m ((c : Thread nD τ).loc main_arg3) := entry0_arg3 (W0 m ρ c)
theorem at3_arg4 : W3 m ρ c (Proc.devRef .tc main_arg4) = m ((c : Thread nD τ).loc main_arg4) := entry0_arg4 (W0 m ρ c)
theorem at3_arg5 : W3 m ρ c (Proc.devRef .tc main_arg5) = m ((c : Thread nD τ).loc main_arg5) := entry0_arg5 (W0 m ρ c)

/-! ### After the first call: its output is the first projection; the graph values and the later arguments are untouched -/
theorem at4_h : W4 m ρ c (Proc.devRef .tc main_v30)
    = Cert.Spec.proj1 (m ((c : Thread nD τ).loc main_arg0)) (m ((c : Thread nD τ).loc main_arg2)) :=
  (W4_arr m ρ c 2).trans ((Cert.KernelIdeal.Region0.arr (V3 m ρ) c).trans
    (congrArg₂ Cert.Spec.proj1 (at3_arg0 m ρ c) (at3_arg2 m ρ c)))
theorem at4_src : W4 m ρ c (Proc.devRef .tc main_v3) = srcs m c := (W4_of_ne m ρ c main_v3 (by decide)).trans (at3_src m ρ c)
theorem at4_dst : W4 m ρ c (Proc.devRef .tc main_v6) = dsts m c := (W4_of_ne m ρ c main_v6 (by decide)).trans (at3_dst m ρ c)
theorem at4_norm : W4 m ρ c (Proc.devRef .tc main_v29) = norms m c := (W4_of_ne m ρ c main_v29 (by decide)).trans (at3_norm m ρ c)
theorem at4_arg3 : W4 m ρ c (Proc.devRef .tc main_arg3) = m ((c : Thread nD τ).loc main_arg3) := (W4_of_ne m ρ c main_arg3 (by decide)).trans (at3_arg3 m ρ c)
theorem at4_arg4 : W4 m ρ c (Proc.devRef .tc main_arg4) = m ((c : Thread nD τ).loc main_arg4) := (W4_of_ne m ρ c main_arg4 (by decide)).trans (at3_arg4 m ρ c)
theorem at4_arg5 : W4 m ρ c (Proc.devRef .tc main_arg5) = m ((c : Thread nD τ).loc main_arg5) := (W4_of_ne m ρ c main_arg5 (by decide)).trans (at3_arg5 m ρ c)

/-- The first aggregation, of the first projection. -/
abbrev agg1 := agg16 (F := Ideal) (Cert.Spec.proj1 (m ((c : Thread nD τ).loc main_arg0)) (m ((c : Thread nD τ).loc main_arg2))) (srcs m c) (dsts m c) (norms m c)
/-- A bias vector as one row. -/
abbrev bias1 : (⟨S1x16, .f32⟩ : BufTy).Contents (Elt Ideal) := shapeCast S1x16 (m ((c : Thread nD τ).loc main_arg3)) shapeCasts_S16_S1x16
abbrev bias2 : (⟨S1x40, .f32⟩ : BufTy).Contents (Elt Ideal) := shapeCast S1x40 (m ((c : Thread nD τ).loc main_arg5)) shapeCasts_S40_S1x40

/-! ### At the second call's entry -/
theorem at5_agg : W5 m ρ c (Proc.devRef .tc main_v43) = agg1 m c := by
  refine (mid1_agg (W4 m ρ c)).trans ?_
  rw [at4_h, at4_src, at4_dst, at4_norm]
theorem at5_bias : W5 m ρ c (Proc.devRef .tc main_v44) = bias1 m c := by
  refine (mid1_bias (W4 m ρ c)).trans ?_
  rw [at4_arg3]
theorem at5_arg4 : W5 m ρ c (Proc.devRef .tc main_arg4) = m ((c : Thread nD τ).loc main_arg4) := (mid1_arg4 (W4 m ρ c)).trans (at4_arg4 m ρ c)
theorem at5_arg5 : W5 m ρ c (Proc.devRef .tc main_arg5) = m ((c : Thread nD τ).loc main_arg5) := (mid1_arg5 (W4 m ρ c)).trans (at4_arg5 m ρ c)
theorem at5_src : W5 m ρ c (Proc.devRef .tc main_v3) = srcs m c := (mid1_src (W4 m ρ c)).trans (at4_src m ρ c)
theorem at5_dst : W5 m ρ c (Proc.devRef .tc main_v6) = dsts m c := (mid1_dst (W4 m ρ c)).trans (at4_dst m ρ c)
theorem at5_norm : W5 m ρ c (Proc.devRef .tc main_v29) = norms m c := (mid1_norm (W4 m ρ c)).trans (at4_norm m ρ c)

/-- The second projection, of the first aggregation. -/
abbrev h2 := Cert.Spec.proj2 (agg1 m c) (bias1 m c) (m ((c : Thread nD τ).loc main_arg4))

/-! ### After the second call -/
theorem at6_h : W6 m ρ c (Proc.devRef .tc main_v45) = h2 m c :=
  (W6_arr m ρ c 3).trans ((Cert.KernelIdeal.Region1.arr (V5 m ρ) c).trans
    (by rw [show V5 m ρ c main_v43 = agg1 m c from at5_agg m ρ c, show V5 m ρ c main_v44 = bias1 m c from at5_bias m ρ c,
          show V5 m ρ c main_arg4 = m ((c : Thread nD τ).loc main_arg4) from at5_arg4 m ρ c]))
theorem at6_src : W6 m ρ c (Proc.devRef .tc main_v3) = srcs m c := (W6_of_ne m ρ c main_v3 (by decide)).trans (at5_src m ρ c)
theorem at6_dst : W6 m ρ c (Proc.devRef .tc main_v6) = dsts m c := (W6_of_ne m ρ c main_v6 (by decide)).trans (at5_dst m ρ c)
theorem at6_norm : W6 m ρ c (Proc.devRef .tc main_v29) = norms m c := (W6_of_ne m ρ c main_v29 (by decide)).trans (at5_norm m ρ c)
theorem at6_arg5 : W6 m ρ c (Proc.devRef .tc main_arg5) = m ((c : Thread nD τ).loc main_arg5) := (W6_of_ne m ρ c main_arg5 (by decide)).trans (at5_arg5 m ρ c)

/-- The second aggregation, of the second projection. -/
abbrev agg2 := agg40 (F := Ideal) (h2 m c) (srcs m c) (dsts m c) (norms m c)

/-! ### At the third call's entry -/
theorem at7_agg : W7 m ρ c (Proc.devRef .tc main_v58) = agg2 m c := by
  refine (mid2_agg (W6 m ρ c)).trans ?_
  rw [at6_h, at6_src, at6_dst, at6_norm]
theorem at7_bias : W7 m ρ c (Proc.devRef .tc main_v59) = bias2 m c := by
  refine (mid2_bias (W6 m ρ c)).trans ?_
  rw [at6_arg5]

/-- THE RESULT: the third call's output array at the end of the run. -/
theorem result : W8 m ρ c (Proc.devRef .tc main_v60) = Cert.Spec.logSoftmaxBias (agg2 m c) (bias2 m c) :=
  (W8_arr m ρ c 2).trans ((Cert.KernelIdeal.Region2.arr (V7 m ρ) c).trans
    (by rw [show V7 m ρ c main_v58 = agg2 m c from at7_agg m ρ c, show V7 m ρ c main_v59 = bias2 m c from at7_bias m ρ c]))

end Run

end Cert.KernelIdeal.Chain

end
-- ==== Proof.RefStages.lean ====
/-
  The reference's three dense stages, read index by index at the extended reals, are the specification's functions:
  its first `dot_general` is `Spec.proj1`; bias, `relu` and the second `dot_general` are `Spec.proj2` of the first
  aggregation; bias and `log_softmax` are `Spec.logSoftmaxBias` of the second aggregation. (jax's `log_softmax`
  takes the maximum once more against −∞, which changes nothing: `Spec.max_start_rowMax`.)
-/
import proofs.«119924_j85598698209491_1_alg».proof.Proof.RefRead
import proofs.«119924_j85598698209491_1_alg».proof.Proof.Spec
import Idealize.ShloMosaic.Lib.ValueIdx
import Idealize.ShloMosaic.PureOps.Ideal.Laws

noncomputable section

namespace Cert.ReferenceIdeal.Stages

open Cert.ReferenceIdeal Cert.ReferenceIdeal.ReadCopy
open Idealize.ShloMosaic Idealize.ShloMosaic.TcCoe Idealize.ShloMosaic.ValueIdx
open scoped BigOperators

variable (x0 : (⟨S200000x128, .f32⟩ : BufTy).Contents (Elt Ideal)) (x1 : (⟨S2x6400000, .i32⟩ : BufTy).Contents (Elt Ideal))
  (x2 : (⟨S128x16, .f32⟩ : BufTy).Contents (Elt Ideal)) (x3 : (⟨S16, .f32⟩ : BufTy).Contents (Elt Ideal))
  (x4 : (⟨S16x40, .f32⟩ : BufTy).Contents (Elt Ideal)) (x5 : (⟨S40, .f32⟩ : BufTy).Contents (Elt Ideal))

/-- The first `dot_general`. -/
theorem proj1_eq : val_main_v7 (F := Ideal) x0 x2 = Cert.Spec.proj1 x0 x2 := by
  funext i
  rw [val_main_v7_apply]
  unfold Cert.Spec.proj1
  refine Finset.sum_congr rfl fun q _ => ?_
  have el : lidx_main_v7 i q = ix2 (i 0) q :=
    funext fun a => Fin.ext (by match a with | ⟨0, _⟩ => rfl | ⟨1, _⟩ => rfl)
  have er : ridx_main_v7 i q = ix2 q (i 1) :=
    funext fun a => Fin.ext (by match a with | ⟨0, _⟩ => rfl | ⟨1, _⟩ => rfl)
  rw [el, er]
  rfl

/-- Bias (as the row `val_main_v44`), `relu`, the second `dot_general`, over the first aggregation `val_main_v43`. -/
theorem proj2_eq : val_main_v48 (F := Ideal) x0 x1 x2 x3 x4
    = Cert.Spec.proj2 (val_main_v43 (F := Ideal) x0 x1 x2) (val_main_v44 (F := Ideal) x3) x4 := by
  funext i
  rw [val_main_v48_apply]
  unfold Cert.Spec.proj2
  refine Finset.sum_congr rfl fun q _ => ?_
  rw [val_main_v47_apply, val_main_v46_apply, val_main_v45_apply, val_main_call1_v0_apply, val_main_call1_cst_apply]
  generalize val_main_v43 (F := Ideal) x0 x1 x2 = A
  generalize val_main_v44 (F := Ideal) x3 = b
  have el : lidx_main_v48 i q = ix2 (i 0) q :=
    funext fun a => Fin.ext (by match a with | ⟨0, _⟩ => rfl | ⟨1, _⟩ => rfl)
  have er : ridx_main_v48 i q = ix2 q (i 1) :=
    funext fun a => Fin.ext (by match a with | ⟨0, _⟩ => rfl | ⟨1, _⟩ => rfl)
  have eb : idx_main_v45 (ix2 (i 0) q) = ix2 0 q :=
    funext fun a => Fin.ext (by match a with | ⟨0, _⟩ => rfl | ⟨1, _⟩ => rfl)
  rw [el, er, eb]
  simp only [Ideal.maximumf_def, Ideal.addf_def, Ideal.ofBits_def]
  rfl

/-- The row-reduction shape fact in the form that names the inserted coordinate. -/
theorem reduces_row : S200000x40.Reduces [1] S200000 := by decide

/-- Row `r` with the column coordinate `q` put back is the index `(r, q)`. -/
theorem lift_row (r : Fin 200000) (q : Fin 40) : reduces_row.lift (ix1 r) q = ix2 r q :=
  funext fun a => Fin.ext (by match a with | ⟨0, _⟩ => rfl | ⟨1, _⟩ => rfl)

/-- The biased logits at `(r, q)`: the aggregation's entry plus the bias row's entry in column `q`. -/
theorem logits_at (r : Fin 200000) (q : Fin 40) :
    val_main_v87 (F := Ideal) x0 x1 x2 x3 x4 x5 (ix2 r q)
      = val_main_v84 (F := Ideal) x0 x1 x2 x3 x4 (ix2 r q) + val_main_v85 (F := Ideal) x5 (ix2 0 q) := by
  rw [val_main_v87_apply, val_main_v86_apply]
  generalize val_main_v84 (F := Ideal) x0 x1 x2 x3 x4 = A
  generalize val_main_v85 (F := Ideal) x5 = b
  have eb : idx_main_v86 (ix2 r q) = ix2 0 q :=
    funext fun a => Fin.ext (by match a with | ⟨0, _⟩ => rfl | ⟨1, _⟩ => rfl)
  rw [eb]
  rfl

/-- A reduction with `maximum` along the columns from the −∞ word, at row `r` of any 200000 × 40 array, is the fold of `max`
    over that row's 40 entries. -/
theorem reduce_max_row (y : (⟨S200000x40, .f32⟩ : BufTy).Contents (Elt Ideal)) (r : Fin 200000) :
    Host.reduce (s := S200000x40) (α := Elt Ideal .f32) (axes := [1]) (t := S200000) (u := S_)
        (FloatOps.maximumf (F := Ideal) (φ := .f32)) y (val_main_call3_cst (F := Ideal))
        Gen.reducesTo_S200000x40_S200000_d1 Gen.h_S_ (ix1 r)
      = Cert.Spec.rowMax (fun q => y (ix2 r q)) := by
  refine (Host.reduce_eq_fold_single (α := Elt Ideal .f32) (s := S200000x40) (t := S200000) (a := 1) (u := S_)
    (FloatOps.maximumf (F := Ideal) (φ := .f32)) y (val_main_call3_cst (F := Ideal))
    Gen.reducesTo_S200000x40_S200000_d1 reduces_row Gen.h_S_ (ix1 r)).trans ?_
  have ef : (y ∘ reduces_row.lift (ix1 r)) = fun q : Fin 40 => y (ix2 r q) :=
    funext fun q => congrArg y (lift_row r q)
  rw [ef]
  rfl

/-- The reference's row maximum at row `r`: the maximum of that row of biased logits. -/
theorem rowMax_at (r : Fin 200000) :
    val_main_call3_v0 (F := Ideal) x0 x1 x2 x3 x4 x5 (ix1 r)
      = Cert.Spec.rowMax (fun q => val_main_v84 (F := Ideal) x0 x1 x2 x3 x4 (ix2 r q) + val_main_v85 (F := Ideal) x5 (ix2 0 q)) :=
  (reduce_max_row (val_main_v87 (F := Ideal) x0 x1 x2 x3 x4 x5) r).trans
    (congrArg Cert.Spec.rowMax (funext fun q => logits_at x0 x1 x2 x3 x4 x5 r q))

/-- The shifted logits at `(r, q)`: the biased logit minus its row's maximum. The reference takes the maximum once more
    against the −∞ word before subtracting, which leaves the row maximum as it is. -/
theorem shifted_at (r : Fin 200000) (q : Fin 40) :
    val_main_call3_v5 (F := Ideal) x0 x1 x2 x3 x4 x5 (ix2 r q)
      = (val_main_v84 (F := Ideal) x0 x1 x2 x3 x4 (ix2 r q) + val_main_v85 (F := Ideal) x5 (ix2 0 q))
        - Cert.Spec.rowMax (fun q' => val_main_v84 (F := Ideal) x0 x1 x2 x3 x4 (ix2 r q') + val_main_v85 (F := Ideal) x5 (ix2 0 q')) := by
  rw [val_main_call3_v5_apply, val_main_call3_v4_apply, val_main_call3_v3_apply, val_main_call3_v2_apply,
    val_main_call3_v1_apply, val_main_call3_cst_0_apply]
  have er : idx_main_call3_v3 (idx_main_call3_v4 (ix2 r q)) = ix1 r :=
    funext fun a => Fin.ext (by match a with | ⟨0, _⟩ => rfl)
  rw [er, rowMax_at, logits_at]
  simp only [Ideal.subf_def, Ideal.maximumf_def, Ideal.ofBits_def]
  rw [Cert.Spec.max_start_rowMax]

/-- The reference's row sum at row `r`: the sum over the row of the exponentials of the shifted logits (the sum starts from the
    zero word, which adds nothing). -/
theorem sumExp_at (r : Fin 200000) :
    val_main_call3_v7 (F := Ideal) x0 x1 x2 x3 x4 x5 (ix1 r)
      = ∑ q : Fin 40, Ideal.exp ((val_main_v84 (F := Ideal) x0 x1 x2 x3 x4 (ix2 r q) + val_main_v85 (F := Ideal) x5 (ix2 0 q))
          - Cert.Spec.rowMax (fun q' => val_main_v84 (F := Ideal) x0 x1 x2 x3 x4 (ix2 r q') + val_main_v85 (F := Ideal) x5 (ix2 0 q'))) := by
  rw [val_main_call3_v7_apply, val_main_call3_cst_1_apply, Ideal.ofBits_def, Ideal.ofBits_zero_f32, zero_add]
  refine Finset.sum_congr rfl fun k _ => ?_
  have ek : idx_main_call3_v7 (ix1 r) k = ix2 r k :=
    funext fun a => Fin.ext (by match a with | ⟨0, _⟩ => rfl | ⟨1, _⟩ => rfl)
  rw [ek, val_main_call3_v6_apply, shifted_at, Ideal.hostUnary_exp_def]

/-- Bias (as the row `val_main_v85`) and `log_softmax`, over the second aggregation `val_main_v84`. -/
theorem logSoftmax_eq : val_main_v88 (F := Ideal) x0 x1 x2 x3 x4 x5
    = Cert.Spec.logSoftmaxBias (val_main_v84 (F := Ideal) x0 x1 x2 x3 x4) (val_main_v85 (F := Ideal) x5) := by
  funext i
  obtain ⟨r, j, rfl⟩ : ∃ (r : Fin 200000) (j : Fin 40), i = ix2 r j := ⟨i 0, i 1, eq_ix2 i⟩
  rw [val_main_v88_apply, shifted_at, val_main_call3_v10_apply, val_main_call3_v9_apply, val_main_call3_v8_apply]
  have er : idx_main_call3_v8 (idx_main_call3_v10 (ix2 r j)) = ix1 r :=
    funext fun a => Fin.ext (by match a with | ⟨0, _⟩ => rfl)
  rw [er, sumExp_at, Ideal.subf_def, Ideal.hostUnary_log_def]
  generalize val_main_v84 (F := Ideal) x0 x1 x2 x3 x4 = A
  generalize val_main_v85 (F := Ideal) x5 = b
  rfl

end Cert.ReferenceIdeal.Stages

end
-- ==== Proof.RefChains.lean ====
/-
  The reference's graph-side stages are the shared graph functions of Proof/HostChains.lean: its edge lists, its edge
  weights (which it computes twice, once per layer, from the same lists: the two are one function of them), and its two
  aggregations, each the aggregation function applied to the dense stage before it. And a bias vector reshaped to one row
  is the bias vector broadcast into one row: both read entry q at (0, q).
-/
import proofs.«119924_j85598698209491_1_alg».proof.Proof.RefRead
import proofs.«119924_j85598698209491_1_alg».proof.Proof.HostChains
import Idealize.ShloMosaic.Lib.Pipeline.Value
import Idealize.ShloMosaic.Lib.ValueIdx
import Idealize.ShloMosaic.Lib.ValueLayout

noncomputable section

namespace Cert.ReferenceIdeal.ChainStages

open Cert.ReferenceIdeal Cert.ReferenceIdeal.Gen Cert.ReferenceIdeal.ReadCopy Cert.ReferenceIdeal.Chains
open Idealize.ShloMosaic Idealize.ShloMosaic.TcCoe Idealize.ShloMosaic.ValueIdx

variable {F : FTy → Type} [FloatOps F]
variable (x0 : (⟨S200000x128, .f32⟩ : BufTy).Contents (Elt F)) (x1 : (⟨S2x6400000, .i32⟩ : BufTy).Contents (Elt F))
  (x2 : (⟨S128x16, .f32⟩ : BufTy).Contents (Elt F)) (x3 : (⟨S16, .f32⟩ : BufTy).Contents (Elt F))
  (x4 : (⟨S16x40, .f32⟩ : BufTy).Contents (Elt F)) (x5 : (⟨S40, .f32⟩ : BufTy).Contents (Elt F))

/-! ## The edge lists -/

/-- The edge lists. -/
theorem src_eq : val_main_v3 (F := F) x1 = srcOf x1 := by
  unfold val_main_v3 val_main_v2 val_main_v1 val_main_v0 srcOf
  rfl
theorem dst_eq : val_main_v6 (F := F) x1 = dstOf x1 := by
  unfold val_main_v6 val_main_v5 val_main_v4 val_main_v0 dstOf
  rfl

/-! ## The pieces of an edge weight, stage by stage

The reference wraps an index list six times (sources and destinations for each layer's weights, sources again for each
layer's row gather), counts the degrees twice and inverts their square roots twice. Each copy is the one shared function
of the same list. -/

/-- The wrapped sources and destinations the first layer's weights are gathered at. -/
theorem wrap_src1 : val_main_v20 (F := F) x1 = wrap (val_main_v3 (F := F) x1) := by
  unfold val_main_v20 val_main_v17 val_main_v19 val_main_v16 val_main_v18 val_main_c val_main_c_3 wrap
  rfl
theorem wrap_dst1 : val_main_v27 (F := F) x1 = wrap (val_main_v6 (F := F) x1) := by
  unfold val_main_v27 val_main_v24 val_main_v26 val_main_v23 val_main_v25 val_main_c_4 val_main_c_5 wrap
  rfl
/-- The wrapped sources the first aggregation gathers rows at. -/
theorem wrap_srcA : val_main_v35 (F := F) x1 = wrap (val_main_v3 (F := F) x1) := by
  unfold val_main_v35 val_main_v32 val_main_v34 val_main_v31 val_main_v33 val_main_c_6 val_main_c_7 wrap
  rfl
/-- The same three for the second layer. -/
theorem wrap_src2 : val_main_v61 (F := F) x1 = wrap (val_main_v3 (F := F) x1) := by
  unfold val_main_v61 val_main_v58 val_main_v60 val_main_v57 val_main_v59 val_main_c_13 val_main_c_14 wrap
  rfl
theorem wrap_dst2 : val_main_v68 (F := F) x1 = wrap (val_main_v6 (F := F) x1) := by
  unfold val_main_v68 val_main_v65 val_main_v67 val_main_v64 val_main_v66 val_main_c_15 val_main_c_16 wrap
  rfl
theorem wrap_srcB : val_main_v76 (F := F) x1 = wrap (val_main_v3 (F := F) x1) := by
  unfold val_main_v76 val_main_v73 val_main_v75 val_main_v72 val_main_v74 val_main_c_17 val_main_c_18 wrap
  rfl

/-- The degrees, counted for the first layer and again for the second. -/
theorem deg1 : val_main_v11 (F := F) x1 = degOf (val_main_v6 (F := F) x1) := by
  unfold val_main_v11 val_main_v9 val_main_v10 val_main_v8 val_main_cst val_main_cst_0 degOf colI
  rfl
theorem deg2 : val_main_v52 (F := F) x1 = degOf (val_main_v6 (F := F) x1) := by
  unfold val_main_v52 val_main_v50 val_main_v51 val_main_v49 val_main_cst_9 val_main_cst_10 degOf colI
  rfl

/-- The inverse square roots of the degrees, zero where the degree is not positive, for each layer. -/
theorem dinv1 : val_main_v15 (F := F) x1 = dinvOf (val_main_v6 (F := F) x1) := by
  unfold val_main_v15 val_main_v13 val_main_v14 val_main_v12 val_main_cst_1 val_main_call0_v1 val_main_call0_v0 val_main_cst_2 dinvOf
  rw [deg1]
  rfl
theorem dinv2 : val_main_v56 (F := F) x1 = dinvOf (val_main_v6 (F := F) x1) := by
  unfold val_main_v56 val_main_v54 val_main_v55 val_main_v53 val_main_cst_11 val_main_call2_v1 val_main_call2_v0 val_main_cst_12 dinvOf
  rw [deg2]
  rfl

/-- An edge's weight as each layer computes it: the product of the two gathered inverse square roots. -/
theorem norm1_stage : val_main_v30 (F := F) x1 = normOf (val_main_v3 (F := F) x1) (val_main_v6 (F := F) x1) := by
  unfold val_main_v30 val_main_v22 val_main_v29 val_main_v21 val_main_v28 normOf colI
  rw [dinv1, wrap_src1, wrap_dst1]
theorem norm2_stage : val_main_v71 (F := F) x1 = normOf (val_main_v3 (F := F) x1) (val_main_v6 (F := F) x1) := by
  unfold val_main_v71 val_main_v63 val_main_v70 val_main_v62 val_main_v69 normOf colI
  rw [dinv2, wrap_src2, wrap_dst2]

/-- The edge weights, as the first layer computes them and as the second does. -/
theorem norm1_eq : val_main_v30 (F := F) x1 = normOf (srcOf x1) (dstOf x1) := by
  rw [norm1_stage, src_eq, dst_eq]
theorem norm2_eq : val_main_v71 (F := F) x1 = normOf (srcOf x1) (dstOf x1) := by
  rw [norm2_stage, src_eq, dst_eq]

/-! ## The aggregations -/

/-- Each aggregation stage is the aggregation function of the dense stage before it, the two lists and that layer's weights. -/
theorem agg16_stage : val_main_v43 (F := F) x0 x1 x2
    = agg16 (val_main_v7 (F := F) x0 x2) (val_main_v3 (F := F) x1) (val_main_v6 (F := F) x1) (val_main_v30 (F := F) x1) := by
  unfold val_main_v43 val_main_v41 val_main_cst_8 val_main_v42 val_main_v40 val_main_v37 val_main_v36 val_main_v39 val_main_v38 agg16 colI
  rw [wrap_srcA]
theorem agg40_stage : val_main_v84 (F := F) x0 x1 x2 x3 x4
    = agg40 (val_main_v48 (F := F) x0 x1 x2 x3 x4) (val_main_v3 (F := F) x1) (val_main_v6 (F := F) x1) (val_main_v71 (F := F) x1) := by
  unfold val_main_v84 val_main_v82 val_main_cst_19 val_main_v83 val_main_v81 val_main_v78 val_main_v77 val_main_v80 val_main_v79 agg40 colI
  rw [wrap_srcB]

/-- The two aggregations, each of the dense stage before it. -/
theorem agg16_eq : val_main_v43 (F := F) x0 x1 x2
    = agg16 (val_main_v7 (F := F) x0 x2) (srcOf x1) (dstOf x1) (normOf (srcOf x1) (dstOf x1)) := by
  rw [agg16_stage, norm1_eq, src_eq, dst_eq]
theorem agg40_eq : val_main_v84 (F := F) x0 x1 x2 x3 x4
    = agg40 (val_main_v48 (F := F) x0 x1 x2 x3 x4) (srcOf x1) (dstOf x1) (normOf (srcOf x1) (dstOf x1)) := by
  rw [agg40_stage, norm2_eq, src_eq, dst_eq]

/-! ## A bias vector as one row -/

/-- A vector reshaped to one row is the vector broadcast into one row. -/
theorem row16_eq (h : S16.ShapeCasts S1x16) :
    (shapeCast S1x16 x3 h : (⟨S1x16, .f32⟩ : BufTy).Contents (Elt F)) = val_main_v44 (F := F) x3 := by
  funext i
  obtain ⟨u, q, rfl⟩ : ∃ (u : Fin 1) (q : Fin 16), i = ix2 u q := ⟨i 0, i 1, eq_ix2 i⟩
  rw [val_main_v44_apply]
  refine (shapeCast_a_1a_apply (a := 16) x3 h u q).trans ?_
  exact congrArg x3 (funext fun a => Fin.ext (by match a with | ⟨0, _⟩ => rfl))
theorem row40_eq (h : S40.ShapeCasts S1x40) :
    (shapeCast S1x40 x5 h : (⟨S1x40, .f32⟩ : BufTy).Contents (Elt F)) = val_main_v85 (F := F) x5 := by
  funext i
  obtain ⟨u, q, rfl⟩ : ∃ (u : Fin 1) (q : Fin 40), i = ix2 u q := ⟨i 0, i 1, eq_ix2 i⟩
  rw [val_main_v85_apply]
  refine (shapeCast_a_1a_apply (a := 40) x5 h u q).trans ?_
  exact congrArg x5 (funext fun a => Fin.ext (by match a with | ⟨0, _⟩ => rfl))

end Cert.ReferenceIdeal.ChainStages

end
-- ==== Proof.Bridge.lean ====
/-
  The two results are one function of the six argument arrays. The kernel's result buffer ends at

      logSoftmaxBias (agg40 (proj2 (agg16 (proj1 X W₁) s d n) b₁ W₂) s d n) b₂

  (Proof/KChain.lean), and the reference's last stage unfolds, stage by stage, to the same expression: its dense stages are
  the specification's functions (Proof/RefStages.lean), its aggregations and edge weights the shared graph functions
  (Proof/RefChains.lean), and its bias rows the reshaped bias vectors. No algebraic law is used and no input need be finite:
  the two programs differ only in how the dense stages are tiled and spelt.
-/
import proofs.«119924_j85598698209491_1_alg».proof.Proof.KChain
import proofs.«119924_j85598698209491_1_alg».proof.Proof.RefStages
import proofs.«119924_j85598698209491_1_alg».proof.Proof.RefChains

set_option maxRecDepth 16384

noncomputable section

namespace Cert.Bridge

open Idealize.ShloMosaic Idealize.ShloMosaic.TcCoe Idealize.SL.Sem
open Cert.ReferenceIdeal.ReadCopy Cert.ReferenceIdeal.Chains

section Reference

variable (x0 : (⟨Cert.ReferenceIdeal.S200000x128, .f32⟩ : BufTy).Contents (Elt Ideal)) (x1 : (⟨Cert.ReferenceIdeal.S2x6400000, .i32⟩ : BufTy).Contents (Elt Ideal))
  (x2 : (⟨Cert.ReferenceIdeal.S128x16, .f32⟩ : BufTy).Contents (Elt Ideal)) (x3 : (⟨Cert.ReferenceIdeal.S16, .f32⟩ : BufTy).Contents (Elt Ideal))
  (x4 : (⟨Cert.ReferenceIdeal.S16x40, .f32⟩ : BufTy).Contents (Elt Ideal)) (x5 : (⟨Cert.ReferenceIdeal.S40, .f32⟩ : BufTy).Contents (Elt Ideal))

/-- The whole network as one expression over the specification's dense stages and the shared graph functions, the two
    bias rows given. -/
def net (b1 : (⟨Cert.ReferenceIdeal.S1x16, .f32⟩ : BufTy).Contents (Elt Ideal)) (b2 : (⟨Cert.ReferenceIdeal.S1x40, .f32⟩ : BufTy).Contents (Elt Ideal)) :
    (⟨Cert.ReferenceIdeal.S200000x40, .f32⟩ : BufTy).Contents (Elt Ideal) :=
  Cert.Spec.logSoftmaxBias
    (agg40 (F := Ideal)
      (Cert.Spec.proj2 (agg16 (F := Ideal) (Cert.Spec.proj1 x0 x2) (srcOf x1) (dstOf x1) (normOf (srcOf x1) (dstOf x1))) b1 x4)
      (srcOf x1) (dstOf x1) (normOf (srcOf x1) (dstOf x1)))
    b2

/-- The reference's last stage is the network with its own bias rows. -/
theorem reference_eq : val_main_v88 (F := Ideal) x0 x1 x2 x3 x4 x5 = net x0 x1 x2 x4 (val_main_v44 (F := Ideal) x3) (val_main_v85 (F := Ideal) x5) := by
  rw [Cert.ReferenceIdeal.Stages.logSoftmax_eq, Cert.ReferenceIdeal.ChainStages.agg40_eq, Cert.ReferenceIdeal.Stages.proj2_eq,
    Cert.ReferenceIdeal.ChainStages.agg16_eq, Cert.ReferenceIdeal.Stages.proj1_eq]
  rfl

end Reference

section Kernel

open Cert.KernelIdeal Cert.KernelIdeal.Gen

variable (m : (ℓ : Loc nD τ sig) → Buf (Elt Ideal) ℓ) (ρ : Dev nD → PrngReg) (c : Dev nD)

/-- The kernel's result buffer at the end of the run is the reference's last stage of the launch memory's arguments. -/
theorem kernel_eq : W8 m ρ c (Proc.devRef .tc main_v60)
    = val_main_v88 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (Cert.KernelIdeal.Chain.result m ρ c).trans ?_
  rw [reference_eq]
  show net _ _ _ _ (Cert.KernelIdeal.Chain.bias1 m c) (Cert.KernelIdeal.Chain.bias2 m c) = _
  rw [show Cert.KernelIdeal.Chain.bias1 m c = val_main_v44 (F := Ideal) (m ((c : Thread nD τ).loc main_arg3)) from
        Cert.ReferenceIdeal.ChainStages.row16_eq (F := Ideal) _ _,
      show Cert.KernelIdeal.Chain.bias2 m c = val_main_v85 (F := Ideal) (m ((c : Thread nD τ).loc main_arg5)) from
        Cert.ReferenceIdeal.ChainStages.row40_eq (F := Ideal) _ _]

end Kernel

end Cert.Bridge

end
-- ==== Proof.RefRunStretches.lean ====
/-
  The reference program's run, stretch by stretch. @main is a straight line of 131 host operations; its result is
  stated over the STAGES `val_main_vN` (one per operation, each the operation applied to earlier stages). The line is cut
  into eight consecutive stretches. For each boundary a record says which buffers later stretches still read and that each
  of them holds its stage (or, for an argument, its launch contents); one theorem per stretch carries the record across
  it, over an arbitrary valuation of the buffers. Composing the eight gives the result buffer at the last stage.

  The stretches follow the computation: (A) the two index vectors (source and destination rows of the edge list, each with
  the node numbers appended); (B) the first projection and the first degree normaliser (scatter-added ones, guarded
  reciprocal square root); (C) the first edge weights (the normaliser gathered at both ends, multiplied); (D) the first
  aggregation (gather, scale, scatter-add, bias, rectify) and the second projection; (E) the second degree normaliser;
  (F) the second edge weights; (G) the second aggregation and bias; (H) the row-wise log-softmax.
-/
import proofs.«119924_j85598698209491_1_alg».proof.Proof.RefRead
import Idealize.ShloMosaic.Lib.StableHlo.Run

noncomputable section

namespace Cert.ReferenceIdeal.RunStretches

open Cert.ReferenceIdeal Cert.ReferenceIdeal.Gen Cert.ReferenceIdeal.RunCopy Cert.ReferenceIdeal.ReadCopy Idealize.ShloMosaic Idealize.ShloMosaic.TcCoe Idealize.SL.Sem Idealize.ShloMosaic.StableHlo

variable {F : FTy → Type} [FloatOps F]

/-! ## The line, cut -/

/-- (A) The two index vectors: a row of the edge list, flattened, with the node numbers appended. -/
abbrev opsA : List (HloOp τ sig (Elt F)) :=
  [ nullary main_v0 (iotaInDim S200000 32 0),
    unary main_arg1 main_v1 ((extractStridedSlice S1x6400000 ![0, 0] · slices_S2x6400000_S1x6400000_0_0) : (⟨S2x6400000, .i32⟩ : BufTy).Contents (Elt F) → (⟨S1x6400000, .i32⟩ : BufTy).Contents (Elt F)),
    reshape main_v1 main_v2 rfl shapeCasts_S1x6400000_S6400000,
    binary main_v2 main_v0 main_v3 ((fun a b => concatenate S6600000 0 [⟨S6400000, a⟩, ⟨S200000, b⟩] concatenates_S6400000_S200000_S6600000_d0) : (⟨S6400000, .i32⟩ : BufTy).Contents (Elt F) → (⟨S200000, .i32⟩ : BufTy).Contents (Elt F) → (⟨S6600000, .i32⟩ : BufTy).Contents (Elt F)),
    unary main_arg1 main_v4 ((extractStridedSlice S1x6400000 ![1, 0] · slices_S2x6400000_S1x6400000_1_0) : (⟨S2x6400000, .i32⟩ : BufTy).Contents (Elt F) → (⟨S1x6400000, .i32⟩ : BufTy).Contents (Elt F)),
    reshape main_v4 main_v5 rfl shapeCasts_S1x6400000_S6400000,
    binary main_v5 main_v0 main_v6 ((fun a b => concatenate S6600000 0 [⟨S6400000, a⟩, ⟨S200000, b⟩] concatenates_S6400000_S200000_S6600000_d0) : (⟨S6400000, .i32⟩ : BufTy).Contents (Elt F) → (⟨S200000, .i32⟩ : BufTy).Contents (Elt F) → (⟨S6600000, .i32⟩ : BufTy).Contents (Elt F)) ]
/-- (B) The first projection; ones scatter-added over the destination vector, and the guarded reciprocal square root of that count. -/
abbrev opsB : List (HloOp τ sig (Elt F)) :=
  [ binary main_arg0 main_arg2 main_v7 ((fun l r => Host.dotGeneral dot_S200000x128_S128x16_S200000x16_1_0_0_1_n_n none l r) : (⟨S200000x128, .f32⟩ : BufTy).Contents (Elt F) → (⟨S128x16, .f32⟩ : BufTy).Contents (Elt F) → (⟨S200000x16, .f32⟩ : BufTy).Contents (Elt F)),
    nullary main_cst (constant S_ .f32 0x3F800000#32),
    unary main_cst main_v8 (broadcastInDim S6600000 ![] bcast_S_S6600000 : (⟨S_, .f32⟩ : BufTy).Contents (Elt F) → (⟨S6600000, .f32⟩ : BufTy).Contents (Elt F)),
    nullary main_cst_0 (constant S_ .f32 0x00000000#32),
    unary main_cst_0 main_v9 (broadcastInDim S200000 ![] bcast_S_S200000 : (⟨S_, .f32⟩ : BufTy).Contents (Elt F) → (⟨S200000, .f32⟩ : BufTy).Contents (Elt F)),
    unary main_v6 main_v10 (broadcastInDim S6600000x1 ![0] bcast_S6600000_S6600000x1_0 : (⟨S6600000, .i32⟩ : BufTy).Contents (Elt F) → (⟨S6600000x1, .i32⟩ : BufTy).Contents (Elt F)),
    ternary main_v9 main_v10 main_v8 main_v11 ((fun x i u => Host.scatterAdd scatter_S200000_S6600000x1_S6600000_n_0_0_1 x i u) : (⟨S200000, .f32⟩ : BufTy).Contents (Elt F) → (⟨S6600000x1, .i32⟩ : BufTy).Contents (Elt F) → (⟨S6600000, .f32⟩ : BufTy).Contents (Elt F) → (⟨S200000, .f32⟩ : BufTy).Contents (Elt F)),
    nullary main_cst_1 (constant S_ .f32 0x00000000#32),
    unary main_cst_1 main_v12 (broadcastInDim S200000 ![] bcast_S_S200000 : (⟨S_, .f32⟩ : BufTy).Contents (Elt F) → (⟨S200000, .f32⟩ : BufTy).Contents (Elt F)),
    binary main_v11 main_v12 main_v13 (cmpf (F := F) .ogt : (⟨S200000, .f32⟩ : BufTy).Contents (Elt F) → (⟨S200000, .f32⟩ : BufTy).Contents (Elt F) → (⟨S200000, .i1⟩ : BufTy).Contents (Elt F)),
    unary main_v11 main_v14 (Host.rsqrt : (⟨S200000, .f32⟩ : BufTy).Contents (Elt F) → (⟨S200000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S200000, .f32⟩) main_call0_v1) (broadcastInDim S200000 ![] bcast_S_S200000),
    TRef.ternary (TRef.of (T := ⟨S200000, .i1⟩) main_v13) (TRef.of (T := ⟨S200000, .f32⟩) main_v14) (TRef.of (T := ⟨S200000, .f32⟩) main_call0_v1) (TRef.of (T := ⟨S200000, .f32⟩) main_v15) select ]
/-- (C) The normaliser gathered at the wrapped source and destination vectors, and the two multiplied. -/
abbrev opsC : List (HloOp τ sig (Elt F)) :=
  [ nullary main_c (constantI S_ 32 0#32),
    unary main_c main_v16 (broadcastInDim S6600000 ![] bcast_S_S6600000 : (⟨S_, .i32⟩ : BufTy).Contents (Elt F) → (⟨S6600000, .i32⟩ : BufTy).Contents (Elt F)),
    binary main_v3 main_v16 main_v17 (cmpi .slt : (⟨S6600000, .i32⟩ : BufTy).Contents (Elt F) → (⟨S6600000, .i32⟩ : BufTy).Contents (Elt F) → (⟨S6600000, .i1⟩ : BufTy).Contents (Elt F)),
    nullary main_c_3 (constantI S_ 32 200000#32),
    unary main_c_3 main_v18 (broadcastInDim S6600000 ![] bcast_S_S6600000 : (⟨S_, .i32⟩ : BufTy).Contents (Elt F) → (⟨S6600000, .i32⟩ : BufTy).Contents (Elt F)),
    binary main_v3 main_v18 main_v19 (addi : (⟨S6600000, .i32⟩ : BufTy).Contents (Elt F) → (⟨S6600000, .i32⟩ : BufTy).Contents (Elt F) → (⟨S6600000, .i32⟩ : BufTy).Contents (Elt F)),
    ternary main_v17 main_v19 main_v3 main_v20 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v20 main_v21 (broadcastInDim S6600000x1 ![0] bcast_S6600000_S6600000x1_0 : (⟨S6600000, .i32⟩ : BufTy).Contents (Elt F) → (⟨S6600000x1, .i32⟩ : BufTy).Contents (Elt F)),
    binary main_v15 main_v21 main_v22 ((fun x i => Host.gather gather_S200000_S6600000x1_S6600000_n_0_n_n_0_1_1 x i) : (⟨S200000, .f32⟩ : BufTy).Contents (Elt F) → (⟨S6600000x1, .i32⟩ : BufTy).Contents (Elt F) → (⟨S6600000, .f32⟩ : BufTy).Contents (Elt F)),
    nullary main_c_4 (constantI S_ 32 0#32),
    unary main_c_4 main_v23 (broadcastInDim S6600000 ![] bcast_S_S6600000 : (⟨S_, .i32⟩ : BufTy).Contents (Elt F) → (⟨S6600000, .i32⟩ : BufTy).Contents (Elt F)),
    binary main_v6 main_v23 main_v24 (cmpi .slt : (⟨S6600000, .i32⟩ : BufTy).Contents (Elt F) → (⟨S6600000, .i32⟩ : BufTy).Contents (Elt F) → (⟨S6600000, .i1⟩ : BufTy).Contents (Elt F)),
    nullary main_c_5 (constantI S_ 32 200000#32),
    unary main_c_5 main_v25 (broadcastInDim S6600000 ![] bcast_S_S6600000 : (⟨S_, .i32⟩ : BufTy).Contents (Elt F) → (⟨S6600000, .i32⟩ : BufTy).Contents (Elt F)),
    binary main_v6 main_v25 main_v26 (addi : (⟨S6600000, .i32⟩ : BufTy).Contents (Elt F) → (⟨S6600000, .i32⟩ : BufTy).Contents (Elt F) → (⟨S6600000, .i32⟩ : BufTy).Contents (Elt F)),
    ternary main_v24 main_v26 main_v6 main_v27 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v27 main_v28 (broadcastInDim S6600000x1 ![0] bcast_S6600000_S6600000x1_0 : (⟨S6600000, .i32⟩ : BufTy).Contents (Elt F) → (⟨S6600000x1, .i32⟩ : BufTy).Contents (Elt F)),
    binary main_v15 main_v28 main_v29 ((fun x i => Host.gather gather_S200000_S6600000x1_S6600000_n_0_n_n_0_1_1 x i) : (⟨S200000, .f32⟩ : BufTy).Contents (Elt F) → (⟨S6600000x1, .i32⟩ : BufTy).Contents (Elt F) → (⟨S6600000, .f32⟩ : BufTy).Contents (Elt F)),
    binary main_v22 main_v29 main_v30 (mulf : (⟨S6600000, .f32⟩ : BufTy).Contents (Elt F) → (⟨S6600000, .f32⟩ : BufTy).Contents (Elt F) → (⟨S6600000, .f32⟩ : BufTy).Contents (Elt F)) ]
/-- (D) Projected rows gathered at the wrapped source vector, scaled, scatter-added over the destination vector; bias, rectifier, second projection. -/
abbrev opsD : List (HloOp τ sig (Elt F)) :=
  [ nullary main_c_6 (constantI S_ 32 0#32),
    unary main_c_6 main_v31 (broadcastInDim S6600000 ![] bcast_S_S6600000 : (⟨S_, .i32⟩ : BufTy).Contents (Elt F) → (⟨S6600000, .i32⟩ : BufTy).Contents (Elt F)),
    binary main_v3 main_v31 main_v32 (cmpi .slt : (⟨S6600000, .i32⟩ : BufTy).Contents (Elt F) → (⟨S6600000, .i32⟩ : BufTy).Contents (Elt F) → (⟨S6600000, .i1⟩ : BufTy).Contents (Elt F)),
    nullary main_c_7 (constantI S_ 32 200000#32),
    unary main_c_7 main_v33 (broadcastInDim S6600000 ![] bcast_S_S6600000 : (⟨S_, .i32⟩ : BufTy).Contents (Elt F) → (⟨S6600000, .i32⟩ : BufTy).Contents (Elt F)),
    binary main_v3 main_v33 main_v34 (addi : (⟨S6600000, .i32⟩ : BufTy).Contents (Elt F) → (⟨S6600000, .i32⟩ : BufTy).Contents (Elt F) → (⟨S6600000, .i32⟩ : BufTy).Contents (Elt F)),
    ternary main_v32 main_v34 main_v3 main_v35 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v35 main_v36 (broadcastInDim S6600000x1 ![0] bcast_S6600000_S6600000x1_0 : (⟨S6600000, .i32⟩ : BufTy).Contents (Elt F) → (⟨S6600000x1, .i32⟩ : BufTy).Contents (Elt F)),
    binary main_v7 main_v36 main_v37 ((fun x i => Host.gather gather_S200000x16_S6600000x1_S6600000x16_1_0_n_n_0_1_116 x i) : (⟨S200000x16, .f32⟩ : BufTy).Contents (Elt F) → (⟨S6600000x1, .i32⟩ : BufTy).Contents (Elt F) → (⟨S6600000x16, .f32⟩ : BufTy).Contents (Elt F)),
    unary main_v30 main_v38 (broadcastInDim S6600000x1 ![0] bcast_S6600000_S6600000x1_0 : (⟨S6600000, .f32⟩ : BufTy).Contents (Elt F) → (⟨S6600000x1, .f32⟩ : BufTy).Contents (Elt F)),
    unary main_v38 main_v39 (broadcastInDim S6600000x16 ![0, 1] bcast_S6600000x1_S6600000x16_0_1 : (⟨S6600000x1, .f32⟩ : BufTy).Contents (Elt F) → (⟨S6600000x16, .f32⟩ : BufTy).Contents (Elt F)),
    binary main_v37 main_v39 main_v40 (mulf : (⟨S6600000x16, .f32⟩ : BufTy).Contents (Elt F) → (⟨S6600000x16, .f32⟩ : BufTy).Contents (Elt F) → (⟨S6600000x16, .f32⟩ : BufTy).Contents (Elt F)),
    nullary main_cst_8 (constant S_ .f32 0x00000000#32),
    unary main_cst_8 main_v41 (broadcastInDim S200000x16 ![] bcast_S_S200000x16 : (⟨S_, .f32⟩ : BufTy).Contents (Elt F) → (⟨S200000x16, .f32⟩ : BufTy).Contents (Elt F)),
    unary main_v6 main_v42 (broadcastInDim S6600000x1 ![0] bcast_S6600000_S6600000x1_0 : (⟨S6600000, .i32⟩ : BufTy).Contents (Elt F) → (⟨S6600000x1, .i32⟩ : BufTy).Contents (Elt F)),
    ternary main_v41 main_v42 main_v40 main_v43 ((fun x i u => Host.scatterAdd scatter_S200000x16_S6600000x1_S6600000x16_1_0_0_1 x i u) : (⟨S200000x16, .f32⟩ : BufTy).Contents (Elt F) → (⟨S6600000x1, .i32⟩ : BufTy).Contents (Elt F) → (⟨S6600000x16, .f32⟩ : BufTy).Contents (Elt F) → (⟨S200000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S200000x16 ![0, 1] bcast_S1x16_S200000x16_0_1 : (⟨S1x16, .f32⟩ : BufTy).Contents (Elt F) → (⟨S200000x16, .f32⟩ : BufTy).Contents (Elt F)),
    binary main_v43 main_v45 main_v46 (addf : (⟨S200000x16, .f32⟩ : BufTy).Contents (Elt F) → (⟨S200000x16, .f32⟩ : BufTy).Contents (Elt F) → (⟨S200000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S200000x16, .f32⟩) main_call1_v0) (broadcastInDim S200000x16 ![] bcast_S_S200000x16),
    TRef.binary (TRef.of (T := ⟨S200000x16, .f32⟩) main_v46) (TRef.of (T := ⟨S200000x16, .f32⟩) main_call1_v0) (TRef.of (T := ⟨S200000x16, .f32⟩) main_v47) maximumf,
    binary main_v47 main_arg4 main_v48 ((fun l r => Host.dotGeneral dot_S200000x16_S16x40_S200000x40_1_0_0_1_n_n none l r) : (⟨S200000x16, .f32⟩ : BufTy).Contents (Elt F) → (⟨S16x40, .f32⟩ : BufTy).Contents (Elt F) → (⟨S200000x40, .f32⟩ : BufTy).Contents (Elt F)) ]
/-- (E) The count and its guarded reciprocal square root, a second time. -/
abbrev opsE : List (HloOp τ sig (Elt F)) :=
  [ nullary main_cst_9 (constant S_ .f32 0x3F800000#32),
    unary main_cst_9 main_v49 (broadcastInDim S6600000 ![] bcast_S_S6600000 : (⟨S_, .f32⟩ : BufTy).Contents (Elt F) → (⟨S6600000, .f32⟩ : BufTy).Contents (Elt F)),
    nullary main_cst_10 (constant S_ .f32 0x00000000#32),
    unary main_cst_10 main_v50 (broadcastInDim S200000 ![] bcast_S_S200000 : (⟨S_, .f32⟩ : BufTy).Contents (Elt F) → (⟨S200000, .f32⟩ : BufTy).Contents (Elt F)),
    unary main_v6 main_v51 (broadcastInDim S6600000x1 ![0] bcast_S6600000_S6600000x1_0 : (⟨S6600000, .i32⟩ : BufTy).Contents (Elt F) → (⟨S6600000x1, .i32⟩ : BufTy).Contents (Elt F)),
    ternary main_v50 main_v51 main_v49 main_v52 ((fun x i u => Host.scatterAdd scatter_S200000_S6600000x1_S6600000_n_0_0_1 x i u) : (⟨S200000, .f32⟩ : BufTy).Contents (Elt F) → (⟨S6600000x1, .i32⟩ : BufTy).Contents (Elt F) → (⟨S6600000, .f32⟩ : BufTy).Contents (Elt F) → (⟨S200000, .f32⟩ : BufTy).Contents (Elt F)),
    nullary main_cst_11 (constant S_ .f32 0x00000000#32),
    unary main_cst_11 main_v53 (broadcastInDim S200000 ![] bcast_S_S200000 : (⟨S_, .f32⟩ : BufTy).Contents (Elt F) → (⟨S200000, .f32⟩ : BufTy).Contents (Elt F)),
    binary main_v52 main_v53 main_v54 (cmpf (F := F) .ogt : (⟨S200000, .f32⟩ : BufTy).Contents (Elt F) → (⟨S200000, .f32⟩ : BufTy).Contents (Elt F) → (⟨S200000, .i1⟩ : BufTy).Contents (Elt F)),
    unary main_v52 main_v55 (Host.rsqrt : (⟨S200000, .f32⟩ : BufTy).Contents (Elt F) → (⟨S200000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S200000, .f32⟩) main_call2_v1) (broadcastInDim S200000 ![] bcast_S_S200000),
    TRef.ternary (TRef.of (T := ⟨S200000, .i1⟩) main_v54) (TRef.of (T := ⟨S200000, .f32⟩) main_v55) (TRef.of (T := ⟨S200000, .f32⟩) main_call2_v1) (TRef.of (T := ⟨S200000, .f32⟩) main_v56) select ]
/-- (F) The edge weights, a second time. -/
abbrev opsF : List (HloOp τ sig (Elt F)) :=
  [ nullary main_c_13 (constantI S_ 32 0#32),
    unary main_c_13 main_v57 (broadcastInDim S6600000 ![] bcast_S_S6600000 : (⟨S_, .i32⟩ : BufTy).Contents (Elt F) → (⟨S6600000, .i32⟩ : BufTy).Contents (Elt F)),
    binary main_v3 main_v57 main_v58 (cmpi .slt : (⟨S6600000, .i32⟩ : BufTy).Contents (Elt F) → (⟨S6600000, .i32⟩ : BufTy).Contents (Elt F) → (⟨S6600000, .i1⟩ : BufTy).Contents (Elt F)),
    nullary main_c_14 (constantI S_ 32 200000#32),
    unary main_c_14 main_v59 (broadcastInDim S6600000 ![] bcast_S_S6600000 : (⟨S_, .i32⟩ : BufTy).Contents (Elt F) → (⟨S6600000, .i32⟩ : BufTy).Contents (Elt F)),
    binary main_v3 main_v59 main_v60 (addi : (⟨S6600000, .i32⟩ : BufTy).Contents (Elt F) → (⟨S6600000, .i32⟩ : BufTy).Contents (Elt F) → (⟨S6600000, .i32⟩ : BufTy).Contents (Elt F)),
    ternary main_v58 main_v60 main_v3 main_v61 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v61 main_v62 (broadcastInDim S6600000x1 ![0] bcast_S6600000_S6600000x1_0 : (⟨S6600000, .i32⟩ : BufTy).Contents (Elt F) → (⟨S6600000x1, .i32⟩ : BufTy).Contents (Elt F)),
    binary main_v56 main_v62 main_v63 ((fun x i => Host.gather gather_S200000_S6600000x1_S6600000_n_0_n_n_0_1_1 x i) : (⟨S200000, .f32⟩ : BufTy).Contents (Elt F) → (⟨S6600000x1, .i32⟩ : BufTy).Contents (Elt F) → (⟨S6600000, .f32⟩ : BufTy).Contents (Elt F)),
    nullary main_c_15 (constantI S_ 32 0#32),
    unary main_c_15 main_v64 (broadcastInDim S6600000 ![] bcast_S_S6600000 : (⟨S_, .i32⟩ : BufTy).Contents (Elt F) → (⟨S6600000, .i32⟩ : BufTy).Contents (Elt F)),
    binary main_v6 main_v64 main_v65 (cmpi .slt : (⟨S6600000, .i32⟩ : BufTy).Contents (Elt F) → (⟨S6600000, .i32⟩ : BufTy).Contents (Elt F) → (⟨S6600000, .i1⟩ : BufTy).Contents (Elt F)),
    nullary main_c_16 (constantI S_ 32 200000#32),
    unary main_c_16 main_v66 (broadcastInDim S6600000 ![] bcast_S_S6600000 : (⟨S_, .i32⟩ : BufTy).Contents (Elt F) → (⟨S6600000, .i32⟩ : BufTy).Contents (Elt F)),
    binary main_v6 main_v66 main_v67 (addi : (⟨S6600000, .i32⟩ : BufTy).Contents (Elt F) → (⟨S6600000, .i32⟩ : BufTy).Contents (Elt F) → (⟨S6600000, .i32⟩ : BufTy).Contents (Elt F)),
    ternary main_v65 main_v67 main_v6 main_v68 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v68 main_v69 (broadcastInDim S6600000x1 ![0] bcast_S6600000_S6600000x1_0 : (⟨S6600000, .i32⟩ : BufTy).Contents (Elt F) → (⟨S6600000x1, .i32⟩ : BufTy).Contents (Elt F)),
    binary main_v56 main_v69 main_v70 ((fun x i => Host.gather gather_S200000_S6600000x1_S6600000_n_0_n_n_0_1_1 x i) : (⟨S200000, .f32⟩ : BufTy).Contents (Elt F) → (⟨S6600000x1, .i32⟩ : BufTy).Contents (Elt F) → (⟨S6600000, .f32⟩ : BufTy).Contents (Elt F)),
    binary main_v63 main_v70 main_v71 (mulf : (⟨S6600000, .f32⟩ : BufTy).Contents (Elt F) → (⟨S6600000, .f32⟩ : BufTy).Contents (Elt F) → (⟨S6600000, .f32⟩ : BufTy).Contents (Elt F)) ]
/-- (G) The second aggregation and its bias. -/
abbrev opsG : List (HloOp τ sig (Elt F)) :=
  [ nullary main_c_17 (constantI S_ 32 0#32),
    unary main_c_17 main_v72 (broadcastInDim S6600000 ![] bcast_S_S6600000 : (⟨S_, .i32⟩ : BufTy).Contents (Elt F) → (⟨S6600000, .i32⟩ : BufTy).Contents (Elt F)),
    binary main_v3 main_v72 main_v73 (cmpi .slt : (⟨S6600000, .i32⟩ : BufTy).Contents (Elt F) → (⟨S6600000, .i32⟩ : BufTy).Contents (Elt F) → (⟨S6600000, .i1⟩ : BufTy).Contents (Elt F)),
    nullary main_c_18 (constantI S_ 32 200000#32),
    unary main_c_18 main_v74 (broadcastInDim S6600000 ![] bcast_S_S6600000 : (⟨S_, .i32⟩ : BufTy).Contents (Elt F) → (⟨S6600000, .i32⟩ : BufTy).Contents (Elt F)),
    binary main_v3 main_v74 main_v75 (addi : (⟨S6600000, .i32⟩ : BufTy).Contents (Elt F) → (⟨S6600000, .i32⟩ : BufTy).Contents (Elt F) → (⟨S6600000, .i32⟩ : BufTy).Contents (Elt F)),
    ternary main_v73 main_v75 main_v3 main_v76 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v76 main_v77 (broadcastInDim S6600000x1 ![0] bcast_S6600000_S6600000x1_0 : (⟨S6600000, .i32⟩ : BufTy).Contents (Elt F) → (⟨S6600000x1, .i32⟩ : BufTy).Contents (Elt F)),
    binary main_v48 main_v77 main_v78 ((fun x i => Host.gather gather_S200000x40_S6600000x1_S6600000x40_1_0_n_n_0_1_140 x i) : (⟨S200000x40, .f32⟩ : BufTy).Contents (Elt F) → (⟨S6600000x1, .i32⟩ : BufTy).Contents (Elt F) → (⟨S6600000x40, .f32⟩ : BufTy).Contents (Elt F)),
    unary main_v71 main_v79 (broadcastInDim S6600000x1 ![0] bcast_S6600000_S6600000x1_0 : (⟨S6600000, .f32⟩ : BufTy).Contents (Elt F) → (⟨S6600000x1, .f32⟩ : BufTy).Contents (Elt F)),
    unary main_v79 main_v80 (broadcastInDim S6600000x40 ![0, 1] bcast_S6600000x1_S6600000x40_0_1 : (⟨S6600000x1, .f32⟩ : BufTy).Contents (Elt F) → (⟨S6600000x40, .f32⟩ : BufTy).Contents (Elt F)),
    binary main_v78 main_v80 main_v81 (mulf : (⟨S6600000x40, .f32⟩ : BufTy).Contents (Elt F) → (⟨S6600000x40, .f32⟩ : BufTy).Contents (Elt F) → (⟨S6600000x40, .f32⟩ : BufTy).Contents (Elt F)),
    nullary main_cst_19 (constant S_ .f32 0x00000000#32),
    unary main_cst_19 main_v82 (broadcastInDim S200000x40 ![] bcast_S_S200000x40 : (⟨S_, .f32⟩ : BufTy).Contents (Elt F) → (⟨S200000x40, .f32⟩ : BufTy).Contents (Elt F)),
    unary main_v6 main_v83 (broadcastInDim S6600000x1 ![0] bcast_S6600000_S6600000x1_0 : (⟨S6600000, .i32⟩ : BufTy).Contents (Elt F) → (⟨S6600000x1, .i32⟩ : BufTy).Contents (Elt F)),
    ternary main_v82 main_v83 main_v81 main_v84 ((fun x i u => Host.scatterAdd scatter_S200000x40_S6600000x1_S6600000x40_1_0_0_1 x i u) : (⟨S200000x40, .f32⟩ : BufTy).Contents (Elt F) → (⟨S6600000x1, .i32⟩ : BufTy).Contents (Elt F) → (⟨S6600000x40, .f32⟩ : BufTy).Contents (Elt F) → (⟨S200000x40, .f32⟩ : BufTy).Contents (Elt F)),
    unary main_arg5 main_v85 (broadcastInDim S1x40 ![1] bcast_S40_S1x40_1 : (⟨S40, .f32⟩ : BufTy).Contents (Elt F) → (⟨S1x40, .f32⟩ : BufTy).Contents (Elt F)),
    unary main_v85 main_v86 (broadcastInDim S200000x40 ![0, 1] bcast_S1x40_S200000x40_0_1 : (⟨S1x40, .f32⟩ : BufTy).Contents (Elt F) → (⟨S200000x40, .f32⟩ : BufTy).Contents (Elt F)),
    binary main_v84 main_v86 main_v87 (addf : (⟨S200000x40, .f32⟩ : BufTy).Contents (Elt F) → (⟨S200000x40, .f32⟩ : BufTy).Contents (Elt F) → (⟨S200000x40, .f32⟩ : BufTy).Contents (Elt F)) ]
/-- (H) Row maximum, shifted exponentials, their sum's logarithm, the difference. -/
abbrev opsH : List (HloOp τ sig (Elt F)) :=
  [ TRef.nullary (TRef.of (T := ⟨S_, .f32⟩) main_call3_cst) (constant S_ .f32 0xFF800000#32),
    TRef.binary (TRef.of (T := ⟨S200000x40, .f32⟩) main_v87) (TRef.of (T := ⟨S_, .f32⟩) main_call3_cst) (TRef.of (T := ⟨S200000, .f32⟩) main_call3_v0) (fun x v => Host.reduce FloatOps.maximumf x v reducesTo_S200000x40_S200000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S200000, .f32⟩) main_call3_v1) (broadcastInDim S200000 ![] bcast_S_S200000),
    TRef.binary (TRef.of (T := ⟨S200000, .f32⟩) main_call3_v1) (TRef.of (T := ⟨S200000, .f32⟩) main_call3_v0) (TRef.of (T := ⟨S200000, .f32⟩) main_call3_v2) maximumf,
    TRef.unary (TRef.of (T := ⟨S200000, .f32⟩) main_call3_v2) (TRef.of (T := ⟨S200000x1, .f32⟩) main_call3_v3) (broadcastInDim S200000x1 ![0] bcast_S200000_S200000x1_0),
    TRef.unary (TRef.of (T := ⟨S200000x1, .f32⟩) main_call3_v3) (TRef.of (T := ⟨S200000x40, .f32⟩) main_call3_v4) (broadcastInDim S200000x40 ![0, 1] bcast_S200000x1_S200000x40_0_1),
    TRef.binary (TRef.of (T := ⟨S200000x40, .f32⟩) main_v87) (TRef.of (T := ⟨S200000x40, .f32⟩) main_call3_v4) (TRef.of (T := ⟨S200000x40, .f32⟩) main_call3_v5) subf,
    TRef.unary (TRef.of (T := ⟨S200000x40, .f32⟩) main_call3_v5) (TRef.of (T := ⟨S200000x40, .f32⟩) main_call3_v6) Host.exp,
    TRef.nullary (TRef.of (T := ⟨S_, .f32⟩) main_call3_cst_1) (constant S_ .f32 0x00000000#32),
    TRef.binary (TRef.of (T := ⟨S200000x40, .f32⟩) main_call3_v6) (TRef.of (T := ⟨S_, .f32⟩) main_call3_cst_1) (TRef.of (T := ⟨S200000, .f32⟩) main_call3_v7) (fun x v => Host.reduceAdd x v reducesTo_S200000x40_S200000_d1 h_S_),
    TRef.unary (TRef.of (T := ⟨S200000, .f32⟩) main_call3_v7) (TRef.of (T := ⟨S200000x1, .f32⟩) main_call3_v8) (broadcastInDim S200000x1 ![0] bcast_S200000_S200000x1_0),
    TRef.unary (TRef.of (T := ⟨S200000x1, .f32⟩) main_call3_v8) (TRef.of (T := ⟨S200000x1, .f32⟩) main_call3_v9) Host.log,
    TRef.unary (TRef.of (T := ⟨S200000x1, .f32⟩) main_call3_v9) (TRef.of (T := ⟨S200000x40, .f32⟩) main_call3_v10) (broadcastInDim S200000x40 ![0, 1] bcast_S200000x1_S200000x40_0_1),
    TRef.binary (TRef.of (T := ⟨S200000x40, .f32⟩) main_call3_v5) (TRef.of (T := ⟨S200000x40, .f32⟩) main_call3_v10) (TRef.of (T := ⟨S200000x40, .f32⟩) main_v88) subf ]

/-- The whole line is the eight stretches end to end. -/
theorem ops_cut : (ops : List (HloOp τ sig (Elt F))) = opsA ++ (opsB ++ (opsC ++ (opsD ++ (opsE ++ (opsF ++ (opsG ++ opsH)))))) := rfl

variable (x0 : (⟨S200000x128, .f32⟩ : BufTy).Contents (Elt F)) (x1 : (⟨S2x6400000, .i32⟩ : BufTy).Contents (Elt F))
  (x2 : (⟨S128x16, .f32⟩ : BufTy).Contents (Elt F)) (x3 : (⟨S16, .f32⟩ : BufTy).Contents (Elt F))
  (x4 : (⟨S16x40, .f32⟩ : BufTy).Contents (Elt F)) (x5 : (⟨S40, .f32⟩ : BufTy).Contents (Elt F))

/-! ## What is live at each cut -/

/-- The six arguments at their launch contents: true at launch, and kept by every stretch (no operation writes an argument). -/
structure Args (W : Valuation τ sig (Elt F)) : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5

/-- After (A): the two index vectors. -/
structure I1 (W : Valuation τ sig (Elt F)) : Prop where
  args : Args x0 x1 x2 x3 x4 x5 W
  v3 : W (Proc.devRef .tc main_v3) = val_main_v3 (F := F) x1
  v6 : W (Proc.devRef .tc main_v6) = val_main_v6 (F := F) x1

/-- After (B): also the projected features and the first normaliser. -/
structure I2 (W : Valuation τ sig (Elt F)) : Prop where
  args : Args x0 x1 x2 x3 x4 x5 W
  v3 : W (Proc.devRef .tc main_v3) = val_main_v3 (F := F) x1
  v6 : W (Proc.devRef .tc main_v6) = val_main_v6 (F := F) x1
  v7 : W (Proc.devRef .tc main_v7) = val_main_v7 (F := F) x0 x2
  v15 : W (Proc.devRef .tc main_v15) = val_main_v15 (F := F) x1

/-- After (C): the first edge weights take the normaliser's place. -/
structure I3 (W : Valuation τ sig (Elt F)) : Prop where
  args : Args x0 x1 x2 x3 x4 x5 W
  v3 : W (Proc.devRef .tc main_v3) = val_main_v3 (F := F) x1
  v6 : W (Proc.devRef .tc main_v6) = val_main_v6 (F := F) x1
  v7 : W (Proc.devRef .tc main_v7) = val_main_v7 (F := F) x0 x2
  v30 : W (Proc.devRef .tc main_v30) = val_main_v30 (F := F) x1

/-- After (D): the index vectors and the second projection. -/
structure I4 (W : Valuation τ sig (Elt F)) : Prop where
  args : Args x0 x1 x2 x3 x4 x5 W
  v3 : W (Proc.devRef .tc main_v3) = val_main_v3 (F := F) x1
  v6 : W (Proc.devRef .tc main_v6) = val_main_v6 (F := F) x1
  v48 : W (Proc.devRef .tc main_v48) = val_main_v48 (F := F) x0 x1 x2 x3 x4

/-- After (E): also the second normaliser. -/
structure I5 (W : Valuation τ sig (Elt F)) : Prop where
  args : Args x0 x1 x2 x3 x4 x5 W
  v3 : W (Proc.devRef .tc main_v3) = val_main_v3 (F := F) x1
  v6 : W (Proc.devRef .tc main_v6) = val_main_v6 (F := F) x1
  v48 : W (Proc.devRef .tc main_v48) = val_main_v48 (F := F) x0 x1 x2 x3 x4
  v56 : W (Proc.devRef .tc main_v56) = val_main_v56 (F := F) x1

/-- After (F): the second edge weights take its place. -/
structure I6 (W : Valuation τ sig (Elt F)) : Prop where
  args : Args x0 x1 x2 x3 x4 x5 W
  v3 : W (Proc.devRef .tc main_v3) = val_main_v3 (F := F) x1
  v6 : W (Proc.devRef .tc main_v6) = val_main_v6 (F := F) x1
  v48 : W (Proc.devRef .tc main_v48) = val_main_v48 (F := F) x0 x1 x2 x3 x4
  v71 : W (Proc.devRef .tc main_v71) = val_main_v71 (F := F) x1

/-- After (G): only the biased second aggregation is read again. -/
structure I7 (W : Valuation τ sig (Elt F)) : Prop where
  args : Args x0 x1 x2 x3 x4 x5 W
  v87 : W (Proc.devRef .tc main_v87) = val_main_v87 (F := F) x0 x1 x2 x3 x4 x5

/-- After (H): the result. -/
structure I8 (W : Valuation τ sig (Elt F)) : Prop where
  args : Args x0 x1 x2 x3 x4 x5 W
  v88 : W (Proc.devRef .tc main_v88) = val_main_v88 (F := F) x0 x1 x2 x3 x4 x5

/-! ## No stretch writes an argument -/

theorem argsA {W : Valuation τ sig (Elt F)} (h : Args x0 x1 x2 x3 x4 x5 W) : Args x0 x1 x2 x3 x4 x5 (after opsA W) where
  a0 := by after_results_simp; exact h.a0
  a1 := by after_results_simp; exact h.a1
  a2 := by after_results_simp; exact h.a2
  a3 := by after_results_simp; exact h.a3
  a4 := by after_results_simp; exact h.a4
  a5 := by after_results_simp; exact h.a5

theorem argsB {W : Valuation τ sig (Elt F)} (h : Args x0 x1 x2 x3 x4 x5 W) : Args x0 x1 x2 x3 x4 x5 (after opsB W) where
  a0 := by after_results_simp; exact h.a0
  a1 := by after_results_simp; exact h.a1
  a2 := by after_results_simp; exact h.a2
  a3 := by after_results_simp; exact h.a3
  a4 := by after_results_simp; exact h.a4
  a5 := by after_results_simp; exact h.a5

theorem argsC {W : Valuation τ sig (Elt F)} (h : Args x0 x1 x2 x3 x4 x5 W) : Args x0 x1 x2 x3 x4 x5 (after opsC W) where
  a0 := by after_results_simp; exact h.a0
  a1 := by after_results_simp; exact h.a1
  a2 := by after_results_simp; exact h.a2
  a3 := by after_results_simp; exact h.a3
  a4 := by after_results_simp; exact h.a4
  a5 := by after_results_simp; exact h.a5

theorem argsD {W : Valuation τ sig (Elt F)} (h : Args x0 x1 x2 x3 x4 x5 W) : Args x0 x1 x2 x3 x4 x5 (after opsD W) where
  a0 := by after_results_simp; exact h.a0
  a1 := by after_results_simp; exact h.a1
  a2 := by after_results_simp; exact h.a2
  a3 := by after_results_simp; exact h.a3
  a4 := by after_results_simp; exact h.a4
  a5 := by after_results_simp; exact h.a5

theorem argsE {W : Valuation τ sig (Elt F)} (h : Args x0 x1 x2 x3 x4 x5 W) : Args x0 x1 x2 x3 x4 x5 (after opsE W) where
  a0 := by after_results_simp; exact h.a0
  a1 := by after_results_simp; exact h.a1
  a2 := by after_results_simp; exact h.a2
  a3 := by after_results_simp; exact h.a3
  a4 := by after_results_simp; exact h.a4
  a5 := by after_results_simp; exact h.a5

theorem argsF {W : Valuation τ sig (Elt F)} (h : Args x0 x1 x2 x3 x4 x5 W) : Args x0 x1 x2 x3 x4 x5 (after opsF W) where
  a0 := by after_results_simp; exact h.a0
  a1 := by after_results_simp; exact h.a1
  a2 := by after_results_simp; exact h.a2
  a3 := by after_results_simp; exact h.a3
  a4 := by after_results_simp; exact h.a4
  a5 := by after_results_simp; exact h.a5

theorem argsG {W : Valuation τ sig (Elt F)} (h : Args x0 x1 x2 x3 x4 x5 W) : Args x0 x1 x2 x3 x4 x5 (after opsG W) where
  a0 := by after_results_simp; exact h.a0
  a1 := by after_results_simp; exact h.a1
  a2 := by after_results_simp; exact h.a2
  a3 := by after_results_simp; exact h.a3
  a4 := by after_results_simp; exact h.a4
  a5 := by after_results_simp; exact h.a5

theorem argsH {W : Valuation τ sig (Elt F)} (h : Args x0 x1 x2 x3 x4 x5 W) : Args x0 x1 x2 x3 x4 x5 (after opsH W) where
  a0 := by after_results_simp; exact h.a0
  a1 := by after_results_simp; exact h.a1
  a2 := by after_results_simp; exact h.a2
  a3 := by after_results_simp; exact h.a3
  a4 := by after_results_simp; exact h.a4
  a5 := by after_results_simp; exact h.a5

/-- A value carried to a buffer's own type and back is the value (the two types are the same type). -/
theorem ofBuf_toBuf {T : BufTy} (x : TRef sig T) (v : T.Contents (Elt F)) : x.ofBuf (x.toBuf v) = v := by
  obtain ⟨r, rfl, _, _⟩ := x; rfl

/-! ## Each stretch carries its record across

A buffer the stretch writes ends at its operation applied to the buffers that operation reads; with the buffers the stretch
finds at their stages, that is the buffer's own stage, by the stages' definitions. A buffer it does not write is kept. -/

theorem stepA {W : Valuation τ sig (Elt F)} (h : Args x0 x1 x2 x3 x4 x5 W) : I1 x0 x1 x2 x3 x4 x5 (after opsA W) where
  args := argsA x0 x1 x2 x3 x4 x5 h
  v3 := by after_results; rw [h.a1]; rfl
  v6 := by after_results; rw [h.a1]; rfl

theorem stepB {W : Valuation τ sig (Elt F)} (h : I1 x0 x1 x2 x3 x4 x5 W) : I2 x0 x1 x2 x3 x4 x5 (after opsB W) where
  args := argsB x0 x1 x2 x3 x4 x5 h.args
  v3 := by after_results_simp; exact h.v3
  v6 := by after_results_simp; exact h.v6
  v7 := by after_results_simp; rw [h.args.a0, h.args.a2]; rfl
  v15 := by after_results_simp; rw [h.v6]; rfl

theorem stepC {W : Valuation τ sig (Elt F)} (h : I2 x0 x1 x2 x3 x4 x5 W) : I3 x0 x1 x2 x3 x4 x5 (after opsC W) where
  args := argsC x0 x1 x2 x3 x4 x5 h.args
  v3 := by after_results_simp; exact h.v3
  v6 := by after_results_simp; exact h.v6
  v7 := by after_results_simp; exact h.v7
  v30 := by after_results_simp; rw [h.v3, h.v6, h.v15]; rfl

theorem stepD {W : Valuation τ sig (Elt F)} (h : I3 x0 x1 x2 x3 x4 x5 W) : I4 x0 x1 x2 x3 x4 x5 (after opsD W) where
  args := argsD x0 x1 x2 x3 x4 x5 h.args
  v3 := by after_results_simp; exact h.v3
  v6 := by after_results_simp; exact h.v6
  v48 := by after_results_simp; rw [h.args.a3, h.args.a4, h.v3, h.v6, h.v7, h.v30]; rfl

theorem stepE {W : Valuation τ sig (Elt F)} (h : I4 x0 x1 x2 x3 x4 x5 W) : I5 x0 x1 x2 x3 x4 x5 (after opsE W) where
  args := argsE x0 x1 x2 x3 x4 x5 h.args
  v3 := by after_results_simp; exact h.v3
  v6 := by after_results_simp; exact h.v6
  v48 := by after_results_simp; exact h.v48
  v56 := by after_results_simp; rw [h.v6]; rfl

theorem stepF {W : Valuation τ sig (Elt F)} (h : I5 x0 x1 x2 x3 x4 x5 W) : I6 x0 x1 x2 x3 x4 x5 (after opsF W) where
  args := argsF x0 x1 x2 x3 x4 x5 h.args
  v3 := by after_results_simp; exact h.v3
  v6 := by after_results_simp; exact h.v6
  v48 := by after_results_simp; exact h.v48
  v71 := by after_results_simp; rw [h.v3, h.v6, h.v56]; rfl

theorem stepG {W : Valuation τ sig (Elt F)} (h : I6 x0 x1 x2 x3 x4 x5 W) : I7 x0 x1 x2 x3 x4 x5 (after opsG W) where
  args := argsG x0 x1 x2 x3 x4 x5 h.args
  v87 := by after_results_simp; rw [h.args.a5, h.v3, h.v6, h.v48, h.v71]; rfl

/-- (H) is a called function's body: its operations carry each value to its buffer's own type and back, which changes
    nothing (`ofBuf_toBuf`). What is left is the log-softmax of what (G) left, z: with M the row maxima of z (never below the
    −∞ word), z − M less the logarithm of the row sums of exp (z − M). -/
theorem stepH {W : Valuation τ sig (Elt F)} (h : I7 x0 x1 x2 x3 x4 x5 W) : I8 x0 x1 x2 x3 x4 x5 (after opsH W) where
  args := argsH x0 x1 x2 x3 x4 x5 h.args
  v88 := by
    have e := h.v87
    unfold val_main_v88 val_main_call3_v10 val_main_call3_v9 val_main_call3_v8 val_main_call3_v7 val_main_call3_cst_1
      val_main_call3_v6 val_main_call3_v5 val_main_call3_v4 val_main_call3_v3 val_main_call3_v2 val_main_call3_v1
      val_main_call3_cst_0 val_main_call3_v0 val_main_call3_cst
    generalize val_main_v87 (F := F) x0 x1 x2 x3 x4 x5 = z at e ⊢
    after_results_simp
    rw [e]
    simp only [ofBuf_toBuf]
    rfl

/-! ## The run -/

/-- After the whole line, from any contents that hold the arguments: the result at the last stage, the arguments kept. -/
theorem after_ops {W : Valuation τ sig (Elt F)} (h : Args x0 x1 x2 x3 x4 x5 W) : I8 x0 x1 x2 x3 x4 x5 (after ops W) := by
  rw [ops_cut, after_append, after_append, after_append, after_append, after_append, after_append, after_append]
  exact stepH x0 x1 x2 x3 x4 x5 (stepG x0 x1 x2 x3 x4 x5 (stepF x0 x1 x2 x3 x4 x5 (stepE x0 x1 x2 x3 x4 x5
    (stepD x0 x1 x2 x3 x4 x5 (stepC x0 x1 x2 x3 x4 x5 (stepB x0 x1 x2 x3 x4 x5 (stepA x0 x1 x2 x3 x4 x5 h)))))))

/-- On every device, for any float values, from any memory with zero counters: every weakly fair execution of @main
    terminates with the result at the last stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88) = val_main_v88 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      have H := after_ops (F := F) _ _ _ _ _ _ (W := launchContents m c) ⟨rfl, rfl, rfl, rfl, rfl, rfl⟩
      ⟨(h c main_v88).trans H.v88, (h c main_arg0).trans H.args.a0, (h c main_arg1).trans H.args.a1,
        (h c main_arg2).trans H.args.a2, (h c main_arg3).trans H.args.a3, (h c main_arg4).trans H.args.a4,
        (h c main_arg5).trans H.args.a5⟩)
    (run_seq scopedRefs_eq scopedSems_eq defs main (fun _ => ops) main_eq (fun _ => ops_sub) m ρ)

end Cert.ReferenceIdeal.RunStretches

end
-- ==== Proof.lean ====
/-
  A two-layer graph convolution over 200000 nodes and 6400000 edges (self loops added): features times a 128×16 weight
  matrix, aggregated over the normalised graph, bias and rectifier, times a 16×40 weight matrix, aggregated again, bias and
  the row-wise log-softmax. The kernel runs the three dense stages as tiled calls of 40 row tiles each (the tiles are
  row-local, so each call computes one whole-array function: Proof/K0, K1, K2) and leaves the graph side (edge lists, edge
  weights, gather, scale, scatter-add) to the same host operations the reference uses. The kernel's run with its result
  named is Proof/KRun.lean, its result as a function of the arguments Proof/KChain.lean; the reference's run is
  Proof/RefRunStretches.lean over the stages of Proof/RefRead.lean; that the two results are ONE function of the six
  arguments is Proof/Bridge.lean. No algebraic law joins the two sides and no input need be finite: the precondition is
  not opened. The ideal pass rewrote nothing, so `preserves` is `True`.
-/
import proofs.«119924_j85598698209491_1_alg».proof.Defs
import proofs.«119924_j85598698209491_1_alg».proof.Proof.Gen.Kernel
import proofs.«119924_j85598698209491_1_alg».proof.Proof.Gen.Kernel.Skeleton
import proofs.«119924_j85598698209491_1_alg».proof.Proof.Gen.Kernel.Launch
import proofs.«119924_j85598698209491_1_alg».proof.Proof.Gen.Kernel.Points
import proofs.«119924_j85598698209491_1_alg».proof.Proof.Gen.Kernel.Frame
import proofs.«119924_j85598698209491_1_alg».proof.Proof.Gen.KernelIdeal
import proofs.«119924_j85598698209491_1_alg».proof.Proof.Gen.KernelIdeal.Skeleton
import proofs.«119924_j85598698209491_1_alg».proof.Proof.Gen.KernelIdeal.Launch
import proofs.«119924_j85598698209491_1_alg».proof.Proof.Gen.KernelIdeal.Points
import proofs.«119924_j85598698209491_1_alg».proof.Proof.Gen.KernelIdeal.Frame
import proofs.«119924_j85598698209491_1_alg».proof.Proof.Gen.ReferenceIdeal
import proofs.«119924_j85598698209491_1_alg».proof.Proof.Gen.Pre_finite_inputs
import proofs.«119924_j85598698209491_1_alg».proof.Proof.KRun
import proofs.«119924_j85598698209491_1_alg».proof.Proof.Bridge
import proofs.«119924_j85598698209491_1_alg».proof.Proof.RefRunStretches
import Idealize.ShloMosaic.Adequacy
import Idealize.ShloMosaic.Init

noncomputable section

namespace Cert.Proof

open Idealize.ShloMosaic Idealize.SL.Sem

/-- Both programs run; the kernel's result buffer ends at the value the reference's does, the arguments agreeing. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W8 m ρ c (Proc.devRef .tc Cert.KernelIdeal.main_v60),
    Cert.KernelIdeal.RunOut.run_out (F := Ideal) m ρ, ?_⟩
  refine (θ_run Cert.ReferenceIdeal.defs _ _).mono (fun _ h c => ⟨(h c).1.trans ?_, (h c).2⟩)
    (Cert.ReferenceIdeal.RunStretches.run (F := Ideal) m' ρ')
  rw [(hagree c).1, (hagree c).2.1, (hagree c).2.2.1, (hagree c).2.2.2.1, (hagree c).2.2.2.2.1, (hagree c).2.2.2.2.2]
  exact (Cert.Bridge.kernel_eq m ρ c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RunStretches.run (F := Ideal) m ρ),
  trivial,
  algebraic⟩

end Cert.Proof

end
